-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x19x512x512 : Shape := ⟨4, ![4, 19, 512, 512]⟩
abbrev S4x512x512 : Shape := ⟨3, ![4, 512, 512]⟩
abbrev S10x4x19x512x512 : Shape := ⟨5, ![10, 4, 19, 512, 512]⟩
abbrev S_ : Shape := ⟨0, ![]⟩

class Facts : Prop where
  bcast_S_S4x19x512x512 : S_.BroadcastsInDim S4x19x512x512 (![] : Fin 0 → Fin S4x19x512x512.rank)
  reducesTo_S4x19x512x512_S_d0_1_2_3 : S4x19x512x512.ReducesTo [0, 1, 2, 3] S_
  h_S_ : 0 < S_.numel
  bcast_S_S10x4x19x512x512 : S_.BroadcastsInDim S10x4x19x512x512 (![] : Fin 0 → Fin S10x4x19x512x512.rank)
  reducesTo_S10x4x19x512x512_S_d0_1_2_3_4 : S10x4x19x512x512.ReducesTo [0, 1, 2, 3, 4] S_
  bcast_S_S4x512x512 : S_.BroadcastsInDim S4x512x512 (![] : Fin 0 → Fin S4x512x512.rank)
  reducesTo_S4x512x512_S_d0_1_2 : S4x512x512.ReducesTo [0, 1, 2] S_

variable [Facts]

def fn_part1 {F : FTy → Type} [FloatOps F] (main_arg2 : IVec S4x512x512 32) (main_v13 : IVec S_ 1) (main_v15 : IVec S4x512x512 1) (main_c_5 : IVec S_ 32) : IVec S_ 1 :=
  let main_v16 : IVec S4x512x512 32 := broadcastInDim S4x512x512 ![] bcast_S_S4x512x512 main_c_5
  let main_v17 : IVec S4x512x512 1 := cmpi .slt main_arg2 main_v16
  let main_v18 : IVec S4x512x512 1 := andi main_v15 main_v17
  let main_c_6 : IVec S_ 1 := constantI S_ 1 1#1
  let main_v19 : IVec S_ 1 := (fun x v => Host.reduce IntOp.andi x v reducesTo_S4x512x512_S_d0_1_2 h_S_) main_v18 main_c_6
  let main_v20 : IVec S_ 1 := andi main_v13 main_v19
  main_v20

def fn {F : FTy → Type} [FloatOps F] (main_arg0 : FVec F S4x19x512x512 .f32) (main_arg1 : FVec F S4x19x512x512 .f32) (main_arg2 : IVec S4x512x512 32) (main_arg3 : FVec F S10x4x19x512x512 .f32) : IVec S_ 1 :=
  let main_v0 : FVec F S4x19x512x512 .f32 := Host.absf main_arg0
  let main_cst : FVec F S_ .f32 := constant S_ .f32 0x7F800000#32
  let main_v1 : FVec F S4x19x512x512 .f32 := broadcastInDim S4x19x512x512 ![] bcast_S_S4x19x512x512 main_cst
  let main_v2 : IVec S4x19x512x512 1 := cmpf .olt main_v0 main_v1
  let main_c : IVec S_ 1 := constantI S_ 1 1#1
  let main_v3 : IVec S_ 1 := (fun x v => Host.reduce IntOp.andi x v reducesTo_S4x19x512x512_S_d0_1_2_3 h_S_) main_v2 main_c
  let main_v4 : FVec F S4x19x512x512 .f32 := Host.absf main_arg1
  let main_cst_0 : FVec F S_ .f32 := constant S_ .f32 0x7F800000#32
  let main_v5 : FVec F S4x19x512x512 .f32 := broadcastInDim S4x19x512x512 ![] bcast_S_S4x19x512x512 main_cst_0
  let main_v6 : IVec S4x19x512x512 1 := cmpf .olt main_v4 main_v5
  let main_c_1 : IVec S_ 1 := constantI S_ 1 1#1
  let main_v7 : IVec S_ 1 := (fun x v => Host.reduce IntOp.andi x v reducesTo_S4x19x512x512_S_d0_1_2_3 h_S_) main_v6 main_c_1
  let main_v8 : IVec S_ 1 := andi main_v3 main_v7
  let main_v9 : FVec F S10x4x19x512x512 .f32 := Host.absf main_arg3
  let main_cst_2 : FVec F S_ .f32 := constant S_ .f32 0x7F800000#32
  let main_v10 : FVec F S10x4x19x512x512 .f32 := broadcastInDim S10x4x19x512x512 ![] bcast_S_S10x4x19x512x512 main_cst_2
  let main_v11 : IVec S10x4x19x512x512 1 := cmpf .olt main_v9 main_v10
  let main_c_3 : IVec S_ 1 := constantI S_ 1 1#1
  let main_v12 : IVec S_ 1 := (fun x v => Host.reduce IntOp.andi x v reducesTo_S10x4x19x512x512_S_d0_1_2_3_4 h_S_) main_v11 main_c_3
  let main_v13 : IVec S_ 1 := andi main_v8 main_v12
  let main_c_4 : IVec S_ 32 := constantI S_ 32 0#32
  let main_v14 : IVec S4x512x512 32 := broadcastInDim S4x512x512 ![] bcast_S_S4x512x512 main_c_4
  let main_v15 : IVec S4x512x512 1 := cmpi .sge main_arg2 main_v14
  let main_c_5 : IVec S_ 32 := constantI S_ 32 19#32
  fn_part1 (F := F) main_arg2 main_v13 main_v15 main_c_5
-- ==== Kernel.lean ====
abbrev S4x19x512x512 : Shape := ⟨4, ![4, 19, 512, 512]⟩
abbrev S4x512x512 : Shape := ⟨3, ![4, 512, 512]⟩
abbrev S10x4x19x512x512 : Shape := ⟨5, ![10, 4, 19, 512, 512]⟩
abbrev S1x19x32x512 : Shape := ⟨4, ![1, 19, 32, 512]⟩
abbrev S10x1x19x32x512 : Shape := ⟨5, ![10, 1, 19, 32, 512]⟩
abbrev S1x32x512 : Shape := ⟨3, ![1, 32, 512]⟩
abbrev S19x32x512 : Shape := ⟨3, ![19, 32, 512]⟩
abbrev S32x512 : Shape := ⟨2, ![32, 512]⟩
abbrev S1x1x19x32x512 : Shape := ⟨5, ![1, 1, 19, 32, 512]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S4x19x512x512, .f32⟩
  | .hbm, ⟨1, _⟩ => ⟨S4x19x512x512, .f32⟩
  | .hbm, ⟨2, _⟩ => ⟨S4x512x512, .i32⟩
  | .hbm, ⟨3, _⟩ => ⟨S10x4x19x512x512, .f32⟩
  | .hbm, ⟨4, _⟩ => ⟨S4x512x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x19x32x512, .f32⟩
  | .local _ .vmem, ⟨1, _⟩ => ⟨S1x19x32x512, .f32⟩
  | .local _ .vmem, ⟨2, _⟩ => ⟨S1x19x32x512, .f32⟩
  | .local _ .vmem, ⟨3, _⟩ => ⟨S1x19x32x512, .f32⟩
  | .local _ .vmem, ⟨4, _⟩ => ⟨S10x1x19x32x512, .f32⟩
  | .local _ .vmem, ⟨5, _⟩ => ⟨S10x1x19x32x512, .f32⟩
  | .local _ .vmem, ⟨6, _⟩ => ⟨S1x32x512, .i32⟩
  | .local _ .vmem, ⟨7, _⟩ => ⟨S1x32x512, .i32⟩
  | .local _ .vmem, ⟨8, _⟩ => ⟨S1x32x512, .f32⟩
  | .local _ .vmem, ⟨9, _⟩ => ⟨S1x32x512, .f32⟩
  | _, _ => ⟨S4x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c10_i32 : BitVec 32 := 10#32
  let v16 : BitVec 32 := Scalar.addi c0_i32 c10_i32
  let c1_i32 : BitVec 32 := 1#32
  ⟨c0_i32, v16, c1_i32⟩
def k0_off1 (k0_t1 : Fin k0_t1_loop.trips) : Fin 5 → Nat :=
  let c0_i32 : BitVec 32 := 0#32
  let c1_i32 : BitVec 32 := 1#32
  let arg7 : BitVec 32 := Scf.iv c0_i32 c1_i32 k0_t1
  let v21 : Index := Scalar.indexCast arg7
  let c0_15 : Index := 0#32
  let c0_16 : Index := 0#32
  let c0_17 : Index := 0#32
  let c0_18 : Index := 0#32
  ![v21.toNat, 0, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x19x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x19x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S10x1x19x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x19x32x512_S1x19x32x512_0_0_0_0 : ∀ a, (![0, 0, 0, 0] : Fin 4 → Nat) a + S1x19x32x512.size a ≤ S1x19x32x512.size a
  h_S1x19x32x512 : 0 < S1x19x32x512.numel
  shapeCasts_S1x19x32x512_S19x32x512 : S1x19x32x512.ShapeCasts S19x32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  iota_S19x32x512_d0_w32 : S19x32x512.Iotas .tc 32 [0]
  shapeCasts_S32x512_S1x32x512 : S32x512.ShapeCasts S1x32x512
  broadcasts_S1x32x512_S19x32x512 : S1x32x512.Broadcasts S19x32x512
  natLt_1_32 : 1 < 32
  h_S1x1x19x32x512 : 0 < S1x1x19x32x512.numel
  shapeCasts_S1x1x19x32x512_S19x32x512 : S1x1x19x32x512.ShapeCasts S19x32x512
  reduces_S19x32x512_S32x512 : S19x32x512.Reduces [0] S32x512
  reducesTo_S4x512x512_S_d0_1_2 : S4x512x512.ReducesTo [0, 1, 2] S_
  h_S_ : 0 < S_.numel
  hrank0 : 0 < grid0.rank
  k0_t1_ok : k0_t1_loop.OK
  k0_off1_inb : ∀ k0_t1 : Fin k0_t1_loop.trips, ∀ a, (k0_off1 k0_t1) a + S1x1x19x32x512.size a ≤ S10x1x19x32x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x32x512.size a ≤ S4x19x512x512.size a
  hwx0_0 : ∀ i : grid0.Coords, EltTy.bits .f32 = 32 ∨ (Rect.block (s := S4x19x512x512) S1x19x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x19x32x512.size a ≤ S4x19x512x512.size a
  hwx0_1 : ∀ i : grid0.Coords, EltTy.bits .f32 = 32 ∨ (Rect.block (s := S4x19x512x512) S1x19x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x1x19x32x512.size a ≤ S10x4x19x512x512.size a
  hwx0_2 : ∀ i : grid0.Coords, EltTy.bits .f32 = 32 ∨ (Rect.block (s := S10x4x19x512x512) S10x1x19x32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x512.size a ≤ S4x512x512.size a
  hwx0_3 : ∀ i : grid0.Coords, EltTy.bits .i32 = 32 ∨ (Rect.block (s := S4x512x512) S1x32x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x512.size a ≤ S4x512x512.size a
  hwx0_4 : ∀ i : grid0.Coords, EltTy.bits .f32 = 32 ∨ (Rect.block (s := S4x512x512) S1x32x512.size (cc0_transform_4 i) (hinb0_4 i)).WholeWords (EltTy.packing .f32)

variable [Facts₀]

abbrev win0_0 : Pipeline.Window sig grid0 :=
  Pipeline.Window.ofSpec (Memref.whole main_arg0) S1x19x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x19x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10x1x19x32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x32x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x19x512x512 : Shape := ⟨4, ![4, 19, 512, 512]⟩
abbrev S4x512x512 : Shape := ⟨3, ![4, 512, 512]⟩
abbrev S10x4x19x512x512 : Shape := ⟨5, ![10, 4, 19, 512, 512]⟩
abbrev S_ : Shape := ⟨0, ![]⟩
abbrev S1x4x19x512x512 : Shape := ⟨5, ![1, 4, 19, 512, 512]⟩
abbrev S10x4x512x512 : Shape := ⟨4, ![10, 4, 512, 512]⟩
abbrev S10x4x1x512x512 : Shape := ⟨5, ![10, 4, 1, 512, 512]⟩
abbrev S1x4x1x512x512 : Shape := ⟨5, ![1, 4, 1, 512, 512]⟩
abbrev S10x4x1x512x512x1 : Shape := ⟨6, ![10, 4, 1, 512, 512, 1]⟩
abbrev S1 : Shape := ⟨1, ![1]⟩
abbrev S1x1x1x1x1x1 : Shape := ⟨6, ![1, 1, 1, 1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S4x19x512x512, .f32⟩
  | .hbm, ⟨1, _⟩ => ⟨S4x19x512x512, .f32⟩
  | .hbm, ⟨2, _⟩ => ⟨S4x512x512, .i32⟩
  | .hbm, ⟨3, _⟩ => ⟨S10x4x19x512x512, .f32⟩
  | .hbm, ⟨4, _⟩ => ⟨S_, .f32⟩
  | .hbm, ⟨5, _⟩ => ⟨S4x19x512x512, .f32⟩
  | .hbm, ⟨6, _⟩ => ⟨S4x19x512x512, .f32⟩
  | .hbm, ⟨7, _⟩ => ⟨S4x19x512x512, .f32⟩
  | .hbm, ⟨8, _⟩ => ⟨S1x4x19x512x512, .f32⟩
  | .hbm, ⟨9, _⟩ => ⟨S1x4x19x512x512, .f32⟩
  | .hbm, ⟨10, _⟩ => ⟨S10x4x19x512x512, .f32⟩
  | .hbm, ⟨11, _⟩ => ⟨S10x4x19x512x512, .f32⟩
  | .hbm, ⟨12, _⟩ => ⟨S10x4x19x512x512, .f32⟩
  | .hbm, ⟨13, _⟩ => ⟨S10x4x19x512x512, .f32⟩
  | .hbm, ⟨14, _⟩ => ⟨S_, .f32⟩
  | .hbm, ⟨15, _⟩ => ⟨S10x4x512x512, .f32⟩
  | .hbm, ⟨16, _⟩ => ⟨S_, .f32⟩
  | .hbm, ⟨17, _⟩ => ⟨S10x4x512x512, .f32⟩
  | .hbm, ⟨18, _⟩ => ⟨S10x4x512x512, .f32⟩
  | .hbm, ⟨19, _⟩ => ⟨S10x4x1x512x512, .f32⟩
  | .hbm, ⟨20, _⟩ => ⟨S10x4x19x512x512, .f32⟩
  | .hbm, ⟨21, _⟩ => ⟨S10x4x19x512x512, .f32⟩
  | .hbm, ⟨22, _⟩ => ⟨S10x4x19x512x512, .f32⟩
  | .hbm, ⟨23, _⟩ => ⟨S_, .f32⟩
  | .hbm, ⟨24, _⟩ => ⟨S10x4x512x512, .f32⟩
  | .hbm, ⟨25, _⟩ => ⟨S10x4x1x512x512, .f32⟩
  | .hbm, ⟨26, _⟩ => ⟨S10x4x1x512x512, .f32⟩
  | .hbm, ⟨27, _⟩ => ⟨S10x4x19x512x512, .f32⟩
  | .hbm, ⟨28, _⟩ => ⟨S10x4x19x512x512, .f32⟩
  | .hbm, ⟨29, _⟩ => ⟨S1x4x1x512x512, .i32⟩
  | .hbm, ⟨30, _⟩ => ⟨S10x4x1x512x512, .i32⟩
  | .hbm, ⟨31, _⟩ => ⟨S_, .i32⟩
  | .hbm, ⟨32, _⟩ => ⟨S10x4x1x512x512, .i32⟩
  | .hbm, ⟨33, _⟩ => ⟨S10x4x1x512x512, .i1⟩
  | .hbm, ⟨34, _⟩ => ⟨S_, .i32⟩
  | .hbm, ⟨35, _⟩ => ⟨S10x4x1x512x512, .i32⟩
  | .hbm, ⟨36, _⟩ => ⟨S10x4x1x512x512, .i32⟩
  | .hbm, ⟨37, _⟩ => ⟨S10x4x1x512x512, .i32⟩
  | .hbm, ⟨38, _⟩ => ⟨S10x4x1x512x512x1, .i32⟩
  | .hbm, ⟨39, _⟩ => ⟨S1, .i32⟩
  | .hbm, ⟨40, _⟩ => ⟨S_, .i32⟩
  | .hbm, ⟨41, _⟩ => ⟨S10x4x1x512x512x1, .i32⟩
  | .hbm, ⟨42, _⟩ => ⟨S10x4x1x512x512x1, .i1⟩
  | .hbm, ⟨43, _⟩ => ⟨S1x1x1x1x1x1, .i32⟩
  | .hbm, ⟨44, _⟩ => ⟨S10x4x1x512x512x1, .i32⟩
  | .hbm, ⟨45, _⟩ => ⟨S10x4x1x512x512x1, .i1⟩
  | .hbm, ⟨46, _⟩ => ⟨S10x4x1x512x512x1, .i1⟩
  | .hbm, ⟨47, _⟩ => ⟨S_, .i1⟩
  | .hbm, ⟨48, _⟩ => ⟨S10x4x1x512x512, .i1⟩
  | .hbm, ⟨49, _⟩ => ⟨S10x4x1x512x512, .f32⟩
  | .hbm, ⟨50, _⟩ => ⟨S_, .f32⟩
  | .hbm, ⟨51, _⟩ => ⟨S10x4x1x512x512, .f32⟩
  | .hbm, ⟨52, _⟩ => ⟨S10x4x1x512x512, .f32⟩
  | .hbm, ⟨53, _⟩ => ⟨S10x4x1x512x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S4x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v12 : Ref sig .tc := ⟨.hbm, 52, rfl⟩
abbrev main_v13 : Ref sig .tc := ⟨.hbm, 53, rfl⟩
abbrev main_cst_0 : Ref sig .tc := ⟨.hbm, 54, rfl⟩
abbrev main_v14 : Ref sig .tc := ⟨.hbm, 55, rfl⟩
abbrev main_cst_1 : Ref sig .tc := ⟨.hbm, 56, rfl⟩
abbrev main_v15 : Ref sig .tc := ⟨.hbm, 57, rfl⟩

abbrev nD : Nat := 1
abbrev τ : Topo := Topo.v7x

variable {F : FTy → Type} [FloatOps F]

class Facts₀ : Prop where
  bcast_S_S4x19x512x512 : S_.BroadcastsInDim S4x19x512x512 (![] : Fin 0 → Fin S4x19x512x512.rank)
  bcast_S4x19x512x512_S1x4x19x512x512_1_2_3_4 : S4x19x512x512.BroadcastsInDim S1x4x19x512x512 (![1, 2, 3, 4] : Fin 4 → Fin S1x4x19x512x512.rank)
  bcast_S1x4x19x512x512_S10x4x19x512x512_0_1_2_3_4 : S1x4x19x512x512.BroadcastsInDim S10x4x19x512x512 (![0, 1, 2, 3, 4] : Fin 5 → Fin S10x4x19x512x512.rank)
  reducesTo_S10x4x19x512x512_S10x4x512x512_d2 : S10x4x19x512x512.ReducesTo [2] S10x4x512x512
  h_S_ : 0 < S_.numel
  bcast_S_S10x4x512x512 : S_.BroadcastsInDim S10x4x512x512 (![] : Fin 0 → Fin S10x4x512x512.rank)
  bcast_S10x4x512x512_S10x4x1x512x512_0_1_3_4 : S10x4x512x512.BroadcastsInDim S10x4x1x512x512 (![0, 1, 3, 4] : Fin 4 → Fin S10x4x1x512x512.rank)
  bcast_S10x4x1x512x512_S10x4x19x512x512_0_1_2_3_4 : S10x4x1x512x512.BroadcastsInDim S10x4x19x512x512 (![0, 1, 2, 3, 4] : Fin 5 → Fin S10x4x19x512x512.rank)
  bcast_S4x512x512_S1x4x1x512x512_1_3_4 : S4x512x512.BroadcastsInDim S1x4x1x512x512 (![1, 3, 4] : Fin 3 → Fin S1x4x1x512x512.rank)
  bcast_S1x4x1x512x512_S10x4x1x512x512_0_1_2_3_4 : S1x4x1x512x512.BroadcastsInDim S10x4x1x512x512 (![0, 1, 2, 3, 4] : Fin 5 → Fin S10x4x1x512x512.rank)
  bcast_S_S10x4x1x512x512 : S_.BroadcastsInDim S10x4x1x512x512 (![] : Fin 0 → Fin S10x4x1x512x512.rank)
  shapeCasts_S10x4x1x512x512_S10x4x1x512x512x1 : S10x4x1x512x512.ShapeCasts S10x4x1x512x512x1
  bcast_S_S10x4x1x512x512x1 : S_.BroadcastsInDim S10x4x1x512x512x1 (![] : Fin 0 → Fin S10x4x1x512x512x1.rank)
  bcast_S1_S1x1x1x1x1x1_5 : S1.BroadcastsInDim S1x1x1x1x1x1 (![5] : Fin 1 → Fin S1x1x1x1x1x1.rank)
  bcast_S1x1x1x1x1x1_S10x4x1x512x512x1_0_1_2_3_4_5 : S1x1x1x1x1x1.BroadcastsInDim S10x4x1x512x512x1 (![0, 1, 2, 3, 4, 5] : Fin 6 → Fin S10x4x1x512x512x1.rank)
  reducesTo_S10x4x1x512x512x1_S10x4x1x512x512_d5 : S10x4x1x512x512x1.ReducesTo [5] S10x4x1x512x512
  reducesTo_S10x4x1x512x512_S_d0_1_2_3_4 : S10x4x1x512x512.ReducesTo [0, 1, 2, 3, 4] S_
  gather_S10x4x19x512x512_S10x4x1x512x512x1_S10x4x1x512x512_n_2_0134_0134_2_5_11111_wf : GatherDims.WF S10x4x19x512x512 S10x4x1x512x512x1 S10x4x1x512x512 [] [2] [0, 1, 3, 4] [2] [0, 1, 3, 4] 5 ![1, 1, 1, 1, 1]

variable [Facts₀]

def gather_S10x4x19x512x512_S10x4x1x512x512x1_S10x4x1x512x512_n_2_0134_0134_2_5_11111 : GatherDims S10x4x19x512x512 S10x4x1x512x512x1 S10x4x1x512x512 where
  offsetDims := []
  collapsedSliceDims := [2]
  operandBatchingDims := [0, 1, 3, 4]
  startIndicesBatchingDims := [0, 1, 3, 4]
  startIndexMap := [2]
  indexVectorDim := 5
  sliceSizes := ![1, 1, 1, 1, 1]
  wf := gather_S10x4x19x512x512_S10x4x1x512x512x1_S10x4x1x512x512_n_2_0134_0134_2_5_11111_wf

class Facts : Prop extends Facts₀ where

variable [Facts]
-- ==== Proof.LibHostLine.lean ====
/- A straight line of host operations run against a list of known buffer contents.

   `Sat V L`: the valuation `V` holds every buffer listed in `L` at the contents listed beside it. Each builder of
   Lib/StableHlo.lean has a step lemma here: when `L` lists the operation's operands, and no listed buffer is the
   operation's result buffer, the valuation after the operation satisfies `L` extended by the result buffer at the
   operation's function of the operands' listed contents. Running the steps down a literal list of operations
   (`StableHlo.after`) therefore never composes the functions: every listed value is a name, and each step checks
   one defining equation. The goals have the shape `∀ V, Sat V L → Sat (after ops V) Lout`; a step lemma peels the
   first operation of `ops`, and `done` closes the empty line by picking `Lout` out of `L` by position. -/
import Idealize.ShloMosaic.Lib.StableHlo.Run
import Idealize.ShloMosaic.Lib.Pipeline.Frame

namespace HostLine

open Idealize.ShloMosaic Idealize.ShloMosaic.StableHlo Idealize.SL.Sem

variable {τ : Topo} {sig : RefSig} {Val : EltTy → Type}

/-- A TensorCore buffer together with contents of its type. -/
abbrev Fact (sig : RefSig) (Val : EltTy → Type) : Type := (b : Ref sig .tc) × b.ty.Contents Val

/-- The valuation holds every listed buffer at its listed contents. -/
def Sat (V : Valuation τ sig Val) (L : List (Fact sig Val)) : Prop :=
  ∀ p ∈ L, V (Proc.devRef (τ := τ) .tc p.1) = p.2

theorem Sat.nil (V : Valuation τ sig Val) : Sat V [] := fun _ hp => nomatch hp

theorem Sat.cons {V : Valuation τ sig Val} {L : List (Fact sig Val)} {b : Ref sig .tc} {v : b.ty.Contents Val}
    (hb : V (Proc.devRef (τ := τ) .tc b) = v) (h : Sat V L) : Sat V (⟨b, v⟩ :: L) := by
  intro p hp
  rcases List.mem_cons.1 hp with rfl | hp
  · exact hb
  · exact h p hp

/-- Reading a listed buffer by its position in the list. -/
theorem Sat.get {V : Valuation τ sig Val} {L : List (Fact sig Val)} (h : Sat V L) (i : Nat) {b : Ref sig .tc}
    {v : b.ty.Contents Val} (hi : L[i]? = some ⟨b, v⟩) : V (Proc.devRef (τ := τ) .tc b) = v :=
  h ⟨b, v⟩ (List.mem_of_getElem? hi)

/-- The empty line: what is asked for is picked out of what is known, by position. -/
theorem done {L Lout : List (Fact sig Val)} (idx : List Nat) (h : idx.filterMap (fun i => L[i]?) = Lout) :
    ∀ V : Valuation τ sig Val, Sat V L → Sat (after [] V) Lout := by
  intro V hV p hp
  subst h
  obtain ⟨i, _, hi⟩ := List.mem_filterMap.1 hp
  exact hV p (List.mem_of_getElem? hi)

/-- One operation, whatever its builder: its result buffer `y` is new to the list, it leaves `y` at `vy` from any
    valuation that satisfies the list, and it leaves every other TensorCore buffer alone. -/
theorem step {op : HloOp τ sig Val} {y : Ref sig .tc} {L Lout : List (Fact sig Val)} {rest : List (HloOp τ sig Val)}
    (vy : y.ty.Contents Val)
    (hres : ∀ V : Valuation τ sig Val, Sat V L → op.result V (Proc.devRef .tc y) = vy)
    (hne : ∀ (V : Valuation τ sig Val) (r : Ref sig .tc), r ≠ y → op.result V (Proc.devRef .tc r) = V (Proc.devRef .tc r))
    (hfr : (L.all fun p => decide (p.1 ≠ y)) = true)
    (k : ∀ V : Valuation τ sig Val, Sat V (⟨y, vy⟩ :: L) → Sat (after rest V) Lout) :
    ∀ V : Valuation τ sig Val, Sat V L → Sat (after (op :: rest) V) Lout := by
  intro V h
  rw [after_cons]
  refine k _ (Sat.cons (hres V h) ?_)
  intro p hp
  rw [hne V p.1 (of_decide_eq_true (List.all_eq_true.1 hfr p hp))]
  exact h p hp

section Builders

variable {L Lout : List (Fact sig Val)} {rest : List (HloOp τ sig Val)}

theorem step_nullary {y : Ref sig .tc} {v : y.ty.Contents Val} {hy}
    (vy : y.ty.Contents Val) (hv : vy = v) (hfr : (L.all fun p => decide (p.1 ≠ y)) = true)
    (k : ∀ V : Valuation τ sig Val, Sat V (⟨y, vy⟩ :: L) → Sat (after rest V) Lout) :
    ∀ V : Valuation τ sig Val, Sat V L → Sat (after (nullary y v hy :: rest) V) Lout :=
  step vy (fun V _ => (nullary_result y v hy V).trans hv.symm) (fun V _ hr => nullary_result_ne y v hy V hr) hfr k

theorem step_unary {x y : Ref sig .tc} {f : x.ty.Contents Val → y.ty.Contents Val} {hx hy}
    (i : Nat) (vx : x.ty.Contents Val) (vy : y.ty.Contents Val) (hi : L[i]? = some ⟨x, vx⟩) (hv : vy = f vx)
    (hfr : (L.all fun p => decide (p.1 ≠ y)) = true)
    (k : ∀ V : Valuation τ sig Val, Sat V (⟨y, vy⟩ :: L) → Sat (after rest V) Lout) :
    ∀ V : Valuation τ sig Val, Sat V L → Sat (after (unary x y f hx hy :: rest) V) Lout :=
  step vy (fun V h => by rw [unary_result, h.get i hi, hv]) (fun V _ hr => unary_result_ne x y f hx hy V hr) hfr k

theorem step_binary {a b y : Ref sig .tc} {f : a.ty.Contents Val → b.ty.Contents Val → y.ty.Contents Val} {ha hb hy}
    (i j : Nat) (va : a.ty.Contents Val) (vb : b.ty.Contents Val) (vy : y.ty.Contents Val)
    (hi : L[i]? = some ⟨a, va⟩) (hj : L[j]? = some ⟨b, vb⟩) (hv : vy = f va vb)
    (hfr : (L.all fun p => decide (p.1 ≠ y)) = true)
    (k : ∀ V : Valuation τ sig Val, Sat V (⟨y, vy⟩ :: L) → Sat (after rest V) Lout) :
    ∀ V : Valuation τ sig Val, Sat V L → Sat (after (binary a b y f ha hb hy :: rest) V) Lout :=
  step vy (fun V h => by rw [binary_result, h.get i hi, h.get j hj, hv])
    (fun V _ hr => binary_result_ne a b y f ha hb hy V hr) hfr k

theorem step_reshape {x y : Ref sig .tc} {he : x.ty.elt = y.ty.elt} {hn : x.ty.shape.ShapeCasts y.ty.shape} {hx hy}
    (i : Nat) (vx : x.ty.Contents Val) (vy : y.ty.Contents Val) (hi : L[i]? = some ⟨x, vx⟩)
    (hv : vy = fun i => he ▸ shapeCast y.ty.shape vx hn i)
    (hfr : (L.all fun p => decide (p.1 ≠ y)) = true)
    (k : ∀ V : Valuation τ sig Val, Sat V (⟨y, vy⟩ :: L) → Sat (after rest V) Lout) :
    ∀ V : Valuation τ sig Val, Sat V L → Sat (after (reshape x y he hn hx hy :: rest) V) Lout :=
  step vy (fun V h => by rw [reshape_result, h.get i hi, hv])
    (fun V _ hr => reshape_result_ne x y he hn hx hy V hr) hfr k

/-- An operation of any number of operands: its value is read under an arbitrary valuation that satisfies the list. -/
theorem step_nary {n : Nat} {xs : Fin n → Ref sig .tc} {y : Ref sig .tc}
    {f : ((k : Fin n) → (xs k).ty.Contents Val) → y.ty.Contents Val} {hxs hy}
    (vy : y.ty.Contents Val)
    (hv : ∀ V : Valuation τ sig Val, Sat V L → f (fun k => V (Proc.devRef .tc (xs k))) = vy)
    (hfr : (L.all fun p => decide (p.1 ≠ y)) = true)
    (k : ∀ V : Valuation τ sig Val, Sat V (⟨y, vy⟩ :: L) → Sat (after rest V) Lout) :
    ∀ V : Valuation τ sig Val, Sat V L → Sat (after (nary xs y f hxs hy :: rest) V) Lout :=
  step vy (fun V h => (nary_result xs y f hxs hy V).trans (hv V h))
    (fun V _ hr => nary_result_ne (y := y) xs f hxs hy V hr) hfr k

end Builders

end HostLine
-- ==== Proof.RefLine.lean ====
/-
  The reference's run, read one operation at a time.

  The reference's @main is a straight line of 54 host operations. Run from a memory whose four argument
  buffers hold `x0` (mean), `x1` (log-variance), `x2` (label) and `x3` (noise), each operation writes one new
  buffer, and that buffer's contents is the operation's function of the contents of its operand buffers. Naming
  every intermediate by its stage — the logits, their running maximum, the shifted exponentials and their sum,
  the normalised label, the range test, the gathered log-probability — the line is followed step by step: at each
  step the operands are looked up among the buffers already known, and the new buffer's stage is, by its very
  definition, the operation applied to theirs. No composed term of the whole program is ever formed. At the end
  the result buffer holds the last stage, the mean of the negated gathered log-probabilities, and the argument
  buffers are as they were.
-/
import proofs.«409889_j14998025798515_3_alg».proof.Proof.RefRead
import proofs.«409889_j14998025798515_3_alg».proof.Proof.LibHostLine

noncomputable section

/-! ## Steps whose operands are found by membership -/

namespace HostLine

open Idealize.ShloMosaic Idealize.ShloMosaic.StableHlo Idealize.SL.Sem

variable {τ : Topo} {sig : RefSig} {Val : EltTy → Type}
variable {L Lout : List (Fact sig Val)} {rest : List (HloOp τ sig Val)}

/-- A listed buffer holds its listed contents. -/
theorem Sat.at {V : Valuation τ sig Val} (h : Sat V L) {b : Ref sig .tc} {v : b.ty.Contents Val}
    (hb : (⟨b, v⟩ : Fact sig Val) ∈ L) : V (Proc.devRef (τ := τ) .tc b) = v := h ⟨b, v⟩ hb

theorem memN {y : Ref sig .tc} {v : y.ty.Contents Val} {hy}
    (vy : y.ty.Contents Val) (hv : vy = v) (hfr : (L.all fun p => decide (p.1 ≠ y)) = true)
    (k : ∀ V : Valuation τ sig Val, Sat V (⟨y, vy⟩ :: L) → Sat (after rest V) Lout) :
    ∀ V : Valuation τ sig Val, Sat V L → Sat (after (nullary y v hy :: rest) V) Lout :=
  step_nullary vy hv hfr k

theorem memU {x y : Ref sig .tc} {f : x.ty.Contents Val → y.ty.Contents Val} {hx hy} {vx : x.ty.Contents Val}
    (vy : y.ty.Contents Val) (hi : (⟨x, vx⟩ : Fact sig Val) ∈ L) (hv : vy = f vx)
    (hfr : (L.all fun p => decide (p.1 ≠ y)) = true)
    (k : ∀ V : Valuation τ sig Val, Sat V (⟨y, vy⟩ :: L) → Sat (after rest V) Lout) :
    ∀ V : Valuation τ sig Val, Sat V L → Sat (after (unary x y f hx hy :: rest) V) Lout :=
  step vy (fun V h => by rw [unary_result, h.at hi, hv]) (fun V _ hr => unary_result_ne x y f hx hy V hr) hfr k

theorem memB {a b y : Ref sig .tc} {f : a.ty.Contents Val → b.ty.Contents Val → y.ty.Contents Val} {ha hb hy}
    {va : a.ty.Contents Val} {vb : b.ty.Contents Val}
    (vy : y.ty.Contents Val) (hi : (⟨a, va⟩ : Fact sig Val) ∈ L) (hj : (⟨b, vb⟩ : Fact sig Val) ∈ L) (hv : vy = f va vb)
    (hfr : (L.all fun p => decide (p.1 ≠ y)) = true)
    (k : ∀ V : Valuation τ sig Val, Sat V (⟨y, vy⟩ :: L) → Sat (after rest V) Lout) :
    ∀ V : Valuation τ sig Val, Sat V L → Sat (after (binary a b y f ha hb hy :: rest) V) Lout :=
  step vy (fun V h => by rw [binary_result, h.at hi, h.at hj, hv])
    (fun V _ hr => binary_result_ne a b y f ha hb hy V hr) hfr k

theorem memT {c a b y : Ref sig .tc} {f : c.ty.Contents Val → a.ty.Contents Val → b.ty.Contents Val → y.ty.Contents Val}
    {hc ha hb hy} {vc : c.ty.Contents Val} {va : a.ty.Contents Val} {vb : b.ty.Contents Val}
    (vy : y.ty.Contents Val) (hh : (⟨c, vc⟩ : Fact sig Val) ∈ L) (hi : (⟨a, va⟩ : Fact sig Val) ∈ L)
    (hj : (⟨b, vb⟩ : Fact sig Val) ∈ L) (hv : vy = f vc va vb)
    (hfr : (L.all fun p => decide (p.1 ≠ y)) = true)
    (k : ∀ V : Valuation τ sig Val, Sat V (⟨y, vy⟩ :: L) → Sat (after rest V) Lout) :
    ∀ V : Valuation τ sig Val, Sat V L → Sat (after (ternary c a b y f hc ha hb hy :: rest) V) Lout :=
  step vy (fun V h => by rw [ternary_result, h.at hh, h.at hi, h.at hj, hv])
    (fun V _ hr => ternary_result_ne (c := c) (a := a) (b := b) (y := y) f hc ha hb hy V hr) hfr k

theorem memR {x y : Ref sig .tc} {he : x.ty.elt = y.ty.elt} {hn : x.ty.shape.ShapeCasts y.ty.shape} {hx hy}
    {vx : x.ty.Contents Val}
    (vy : y.ty.Contents Val) (hi : (⟨x, vx⟩ : Fact sig Val) ∈ L)
    (hv : vy = fun i => he ▸ shapeCast y.ty.shape vx hn i)
    (hfr : (L.all fun p => decide (p.1 ≠ y)) = true)
    (k : ∀ V : Valuation τ sig Val, Sat V (⟨y, vy⟩ :: L) → Sat (after rest V) Lout) :
    ∀ V : Valuation τ sig Val, Sat V L → Sat (after (reshape x y he hn hx hy :: rest) V) Lout :=
  step vy (fun V h => by rw [reshape_result, h.at hi, hv])
    (fun V _ hr => reshape_result_ne x y he hn hx hy V hr) hfr k

/-- The end of the line: everything asked for is among what is known. -/
theorem memDone (hsub : ∀ p ∈ Lout, p ∈ L) : ∀ V : Valuation τ sig Val, Sat V L → Sat (after [] V) Lout :=
  fun V h p hp => h p (hsub p hp)

/-! Transports along a typed reference's buffer type vanish: stated over ARBITRARY operand contents, so that the
    fact is checked once for variables and only instantiated at the stages. -/

theorem absU {α β α' β' : Type} {ca : α → α'} {cy : β' → β} {g0 : α → β} {g1 : α' → β'} {u : α}
    (h : ∀ A, g0 A = cy (g1 (ca A))) : g0 u = cy (g1 (ca u)) := h u

theorem absB {α β γ α' β' γ' : Type} {ca : α → α'} {cb : β → β'} {cy : γ' → γ} {g0 : α → β → γ} {g1 : α' → β' → γ'}
    {u : α} {v : β} (h : ∀ A B, g0 A B = cy (g1 (ca A) (cb B))) : g0 u v = cy (g1 (ca u) (cb v)) := h u v

theorem absT {α β γ δ α' β' γ' δ' : Type} {cc : α → α'} {ca : β → β'} {cb : γ → γ'} {cy : δ' → δ}
    {g0 : α → β → γ → δ} {g1 : α' → β' → γ' → δ'} {w : α} {u : β} {v : γ}
    (h : ∀ C A B, g0 C A B = cy (g1 (cc C) (ca A) (cb B))) : g0 w u v = cy (g1 (cc w) (ca u) (cb v)) := h w u v

end HostLine

/-! ## The reference's line -/

namespace Cert.ReferenceIdeal.Line

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo HostLine

variable {F : FTy → Type} [FloatOps F]

/-- A listed fact is found by walking down the list. -/
local macro "found" : tactic => `(tactic| repeat (first | exact List.Mem.head _ | apply List.Mem.tail))

/-- The defining equation of a stage written by a plain operation, a constant, or a reduction: unfold that one
    stage, drop the transports, and what is left is the same term twice. -/
local macro "stage_eq " n:ident : tactic =>
  `(tactic| (unfold $n; (try simp only [TRef.toBuf, TRef.ofBuf, cast_eq]); all_goals (with_reducible rfl)))

/-- The defining equation of a stage written by an operation of a called function: unfold that one stage, and the
    transports vanish for arbitrary operands. -/
local macro "stage_eqU " n:ident : tactic => `(tactic| (unfold $n; refine HostLine.absU ?_; intro _; rfl))
local macro "stage_eqB " n:ident : tactic => `(tactic| (unfold $n; refine HostLine.absB ?_; intro _ _; rfl))
local macro "stage_eqT " n:ident : tactic => `(tactic| (unfold $n; refine HostLine.absT ?_; intro _ _ _; rfl))

local macro "lineN " n:ident v:term : tactic => `(tactic| refine HostLine.memN $v (by stage_eq $n) (by rfl) ?_)
local macro "lineU " n:ident v:term : tactic => `(tactic| refine HostLine.memU $v (by found) (by stage_eq $n) (by rfl) ?_)
local macro "lineB " n:ident v:term : tactic =>
  `(tactic| refine HostLine.memB $v (by found) (by found) (by stage_eq $n) (by rfl) ?_)
local macro "lineFU " n:ident v:term : tactic => `(tactic| refine HostLine.memU $v (by found) (by stage_eqU $n) (by rfl) ?_)
local macro "lineFB " n:ident v:term : tactic =>
  `(tactic| refine HostLine.memB $v (by found) (by found) (by stage_eqB $n) (by rfl) ?_)
local macro "lineFT " n:ident v:term : tactic =>
  `(tactic| refine HostLine.memT $v (by found) (by found) (by found) (by stage_eqT $n) (by rfl) ?_)
local macro "lineR " v:term : tactic => `(tactic| refine HostLine.memR $v (by found) (by rfl) (by rfl) ?_)

set_option maxRecDepth 8192 in
set_option maxHeartbeats 4000000 in
/-- From any valuation holding the four arguments, the valuation after the reference's 54 operations holds the
    result buffer at the last stage and the arguments as they were. -/
theorem line (x0 x1 : (⟨S4x19x512x512, .f32⟩ : BufTy).Contents (Elt F)) (x2 : (⟨S4x512x512, .i32⟩ : BufTy).Contents (Elt F))
    (x3 : (⟨S10x4x19x512x512, .f32⟩ : BufTy).Contents (Elt F)) :
    ∀ V : Valuation τ sig (Elt F),
      Sat V [(⟨main_arg0, x0⟩ : Fact sig (Elt F)), ⟨main_arg1, x1⟩, ⟨main_arg2, x2⟩, ⟨main_arg3, x3⟩] →
      Sat (after (ops (F := F)) V)
        [(⟨main_v15, val_main_v15 (F := F) x0 x1 x2 x3⟩ : Fact sig (Elt F)), ⟨main_arg0, x0⟩, ⟨main_arg1, x1⟩, ⟨main_arg2, x2⟩, ⟨main_arg3, x3⟩] := by
  unfold ops
  lineN val_main_cst (val_main_cst (F := F))
  lineU val_main_v0 (val_main_v0 (F := F))
  lineB val_main_v1 (val_main_v1 (F := F) x1)
  lineU val_main_v2 (val_main_v2 (F := F) x1)
  lineU val_main_v3 (val_main_v3 (F := F) x0)
  lineU val_main_v4 (val_main_v4 (F := F) x1)
  lineU val_main_v5 (val_main_v5 (F := F) x1)
  lineB val_main_v6 (val_main_v6 (F := F) x1 x3)
  lineU val_main_v7 (val_main_v7 (F := F) x0)
  lineB val_main_v8 (val_main_v8 (F := F) x0 x1 x3)
  lineN val_main_call0_cst (val_main_call0_cst (F := F))
  lineB val_main_call0_v0 (val_main_call0_v0 (F := F) x0 x1 x3)
  lineN val_main_call0_cst_0 (val_main_call0_cst_0 (F := F))
  lineFU val_main_call0_v1 (val_main_call0_v1 (F := F))
  lineFB val_main_call0_v2 (val_main_call0_v2 (F := F) x0 x1 x3)
  lineFU val_main_call0_v3 (val_main_call0_v3 (F := F) x0 x1 x3)
  lineFU val_main_call0_v4 (val_main_call0_v4 (F := F) x0 x1 x3)
  lineFB val_main_call0_v5 (val_main_call0_v5 (F := F) x0 x1 x3)
  lineFU val_main_call0_v6 (val_main_call0_v6 (F := F) x0 x1 x3)
  lineN val_main_call0_cst_1 (val_main_call0_cst_1 (F := F))
  lineB val_main_call0_v7 (val_main_call0_v7 (F := F) x0 x1 x3)
  lineFU val_main_call0_v8 (val_main_call0_v8 (F := F) x0 x1 x3)
  lineFU val_main_call0_v9 (val_main_call0_v9 (F := F) x0 x1 x3)
  lineFU val_main_call0_v10 (val_main_call0_v10 (F := F) x0 x1 x3)
  lineFB val_main_v9 (val_main_v9 (F := F) x0 x1 x3)
  lineU val_main_v10 (val_main_v10 (F := F) x2)
  lineU val_main_v11 (val_main_v11 (F := F) x2)
  lineN val_main_call1_c (val_main_call1_c (F := F))
  lineFU val_main_call1_v0 (val_main_call1_v0 (F := F))
  lineFB val_main_call1_v1 (val_main_call1_v1 (F := F) x2)
  lineN val_main_call1_c_0 (val_main_call1_c_0 (F := F))
  lineFU val_main_call1_v2 (val_main_call1_v2 (F := F))
  lineFB val_main_call1_v3 (val_main_call1_v3 (F := F) x2)
  lineFT val_main_call1_v4 (val_main_call1_v4 (F := F) x2)
  lineR (val_main_call1_v5 (F := F) x2)
  lineN val_main_call1_c_1 (val_main_call1_c_1 (F := F))
  lineN val_main_call1_c_2 (val_main_call1_c_2 (F := F))
  lineFU val_main_call1_v6 (val_main_call1_v6 (F := F))
  lineFB val_main_call1_v7 (val_main_call1_v7 (F := F) x2)
  lineFU val_main_call1_v8 (val_main_call1_v8 (F := F))
  lineFU val_main_call1_v9 (val_main_call1_v9 (F := F))
  lineFB val_main_call1_v10 (val_main_call1_v10 (F := F) x2)
  lineFB val_main_call1_v11 (val_main_call1_v11 (F := F) x2)
  lineN val_main_call1_c_3 (val_main_call1_c_3 (F := F))
  lineB val_main_call1_v12 (val_main_call1_v12 (F := F) x2)
  lineFB val_main_call1_v13 (val_main_call1_v13 (F := F) x0 x1 x2 x3)
  lineN val_main_call1_cst (val_main_call1_cst (F := F))
  lineFU val_main_call1_v14 (val_main_call1_v14 (F := F))
  lineFT val_main_v12 (val_main_v12 (F := F) x0 x1 x2 x3)
  lineU val_main_v13 (val_main_v13 (F := F) x0 x1 x2 x3)
  lineN val_main_cst_0 (val_main_cst_0 (F := F))
  lineB val_main_v14 (val_main_v14 (F := F) x0 x1 x2 x3)
  lineN val_main_cst_1 (val_main_cst_1 (F := F))
  lineB val_main_v15 (val_main_v15 (F := F) x0 x1 x2 x3)
  refine HostLine.memDone ?_
  intro p hp
  simp only [List.mem_cons, List.mem_nil_iff, or_false] at hp
  rcases hp with rfl | rfl | rfl | rfl | rfl <;> found

/-- On every device, from any memory with zero counters: every weakly fair execution of the reference terminates
    with the result buffer at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
        = val_main_v15 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_)
    (run_seq scopedRefs_eq scopedSems_eq defs main (fun _ => ops) main_eq (fun _ => ops_sub) m ρ)
  have hs := line (F := F) (m ((c.tc : Thread nD τ).loc main_arg0)) (m ((c.tc : Thread nD τ).loc main_arg1))
    (m ((c.tc : Thread nD τ).loc main_arg2)) (m ((c.tc : Thread nD τ).loc main_arg3)) (launchContents m c)
    (by
      intro p hp
      simp only [List.mem_cons, List.mem_nil_iff, or_false] at hp
      rcases hp with rfl | rfl | rfl | rfl <;> rfl)
  exact ⟨(h c main_v15).trans (hs.at (List.Mem.head _)),
    (h c main_arg0).trans (hs.at (by found)), (h c main_arg1).trans (hs.at (by found)),
    (h c main_arg2).trans (hs.at (by found)), (h c main_arg3).trans (hs.at (by found))⟩

end Cert.ReferenceIdeal.Line

end
-- ==== Proof.PixelLaw.lean ====
/-
  One pixel, one sample. With real logits `l c` over the 19 classes and a class `ℓ`, the
  negative log-likelihood of `ℓ` under the softmax of `l` is `log (∑ c, exp (l c)) - l ℓ`.
  The kernel computes it as the log of the plain sum of exponentials minus the one-hot-weighted sum
  of the logits; the reference as minus the gathered entry of `(l - M) - log (∑ exp (l - M))`, with
  `M` the running maximum. Over the reals the shift by `M` cancels: `exp (l c - M) = exp (-M) · exp (l c)`
  and the logarithm of a product of positives is the sum of the logarithms. Both are stated here on
  the extended reals at real arguments, where exponential and logarithm are the real ones (the sum
  of exponentials is positive, so the logarithm is never at its corner).
-/
import Idealize.ShloMosaic.PureOps.Ideal

noncomputable section

namespace Cert.Nll

open Idealize.ShloMosaic

/-- The negative log-likelihood of class `ℓ` under the softmax of the logits `l`. -/
def nll (l : Fin 19 → ℝ) (ℓ : Fin 19) : ℝ := Real.log (∑ c, Real.exp (l c)) - l ℓ

/-- The coercion to the extended reals commutes with a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of exponentials over the 19 classes is positive. -/
theorem sum_exp_pos (l : Fin 19 → ℝ) : 0 < ∑ c, Real.exp (l c) :=
  Finset.sum_pos (fun c _ => Real.exp_pos _) ⟨0, Finset.mem_univ _⟩

/-- The log of the sum of exponentials of real logits, on the extended reals, is the real one. -/
theorem log_sum_exp (l : Fin 19 → ℝ) :
    Ideal.log (∑ c, Ideal.exp ((l c : ℝ) : EReal)) = ((Real.log (∑ c, Real.exp (l c)) : ℝ) : EReal) := by
  simp only [Ideal.exp_coe]
  rw [← coe_sum, Ideal.log_coe, if_neg (not_le.2 (sum_exp_pos l))]

/-- A one-hot weighting of the logits sums to the logit of the hot class. -/
theorem onehot_sum (l : Fin 19 → ℝ) (ℓ : Fin 19) (δ : Fin 19 → EReal) (hδ : ∀ c, δ c = if c = ℓ then 1 else 0) :
    ∑ c, δ c * ((l c : ℝ) : EReal) = ((l ℓ : ℝ) : EReal) := by
  rw [Finset.sum_eq_single ℓ]
  · rw [hδ, if_pos rfl, one_mul]
  · intro c _ hc; rw [hδ, if_neg hc, zero_mul]
  · intro h; exact absurd (Finset.mem_univ _) h

/-- The kernel's pixel: log-sum-exp minus the one-hot-weighted sum of the logits. -/
theorem kernel_pixel (l : Fin 19 → ℝ) (ℓ : Fin 19) (δ : Fin 19 → EReal) (hδ : ∀ c, δ c = if c = ℓ then 1 else 0) :
    Ideal.log (∑ c, Ideal.exp ((l c : ℝ) : EReal)) - ∑ c, δ c * ((l c : ℝ) : EReal) = ((nll l ℓ : ℝ) : EReal) := by
  rw [log_sum_exp, onehot_sum l ℓ δ hδ, ← EReal.coe_sub]; rfl

/-- The reference's pixel: minus the entry at `ℓ` of the shifted logits less the log of the sum of
    their exponentials, for ANY real shift `M`. -/
theorem reference_pixel (l : Fin 19 → ℝ) (ℓ : Fin 19) (M : ℝ) :
    -((((l ℓ : ℝ) : EReal) - (M : EReal)) - Ideal.log (∑ c, Ideal.exp (((l c : ℝ) : EReal) - (M : EReal))))
      = ((nll l ℓ : ℝ) : EReal) := by
  have h1 : ∀ c, Ideal.exp (((l c : ℝ) : EReal) - (M : EReal)) = ((Real.exp (l c - M) : ℝ) : EReal) := fun c => by
    rw [← EReal.coe_sub, Ideal.exp_coe]
  have hpos : 0 < ∑ c, Real.exp (l c - M) := Finset.sum_pos (fun c _ => Real.exp_pos _) ⟨0, Finset.mem_univ _⟩
  have hsum : ∑ c, Real.exp (l c - M) = Real.exp (-M) * ∑ c, Real.exp (l c) := by
    rw [Finset.mul_sum]
    exact Finset.sum_congr rfl fun c _ => by rw [← Real.exp_add]; congr 1; ring
  simp only [h1]
  rw [← coe_sum, Ideal.log_coe, if_neg (not_le.2 hpos), ← EReal.coe_sub, ← EReal.coe_sub, ← EReal.coe_neg]
  congr 1
  unfold nll
  rw [hsum, Real.log_mul (Real.exp_pos _).ne' (sum_exp_pos l).ne', Real.log_exp]
  ring

/-- The running maximum of real logits from minus infinity is a real number. -/
theorem fold_max_real (l : Fin 19 → ℝ) :
    ∃ M : ℝ, (Finset.univ : Finset (Fin 19)).fold max (⊥ : EReal) (fun c => ((l c : ℝ) : EReal)) = (M : EReal) := by
  have hbot : (⊥ : EReal) < (Finset.univ : Finset (Fin 19)).fold max (⊥ : EReal) (fun c => ((l c : ℝ) : EReal)) :=
    (Finset.lt_fold_max _).2 (Or.inr ⟨0, Finset.mem_univ _, EReal.bot_lt_coe _⟩)
  have htop : (Finset.univ : Finset (Fin 19)).fold max (⊥ : EReal) (fun c => ((l c : ℝ) : EReal)) < ⊤ :=
    (Finset.fold_max_lt _).2 ⟨bot_lt_top, fun c _ => EReal.coe_lt_top _⟩
  exact ⟨_, (EReal.coe_toReal htop.ne hbot.ne').symm⟩

end Cert.Nll

end
-- ==== Proof.Consts.lean ====
/-
  The float literals the two programs spell, as the extended reals their bit patterns denote.
  One half scales the log-variance before the exponential on both sides; minus infinity seeds the
  reference's running maximum; the kernel divides the total by 2^20 = 4·512·512 and then by 10, the
  reference once by 10485760 = 10·4·512·512.
-/
import Idealize.ShloMosaic.PureOps.Ideal

noncomputable section

namespace Cert.Consts

open Idealize.ShloMosaic

/-- The pattern of `0.5` denotes the real one half. -/
theorem ofBits_half : Ideal.ofBits .f32 0x3F000000#32 = ((2⁻¹ : ℝ) : EReal) := by
  simp [Ideal.ofBits, Ideal.ieee, -EReal.coe_mul] <;> norm_num

/-- The pattern of `+0.0` denotes zero. -/
theorem ofBits_zero : Ideal.ofBits .f32 0x00000000#32 = 0 := by
  simp [Ideal.ofBits, Ideal.ieee]

/-- The pattern of `-inf` denotes the bottom of the extended reals. -/
theorem ofBits_neg_inf : Ideal.ofBits .f32 0xFF800000#32 = ⊥ := by
  simp [Ideal.ofBits, Ideal.ieee]

/-- `1048576.0`, the number of pixels 4·512·512. -/
theorem ofBits_pixels : Ideal.ofBits .f32 0x49800000#32 = ((1048576 : ℝ) : EReal) := by
  simp [Ideal.ofBits, Ideal.ieee, -EReal.coe_mul] <;> norm_num

/-- `10.0`, the number of samples. -/
theorem ofBits_ten : Ideal.ofBits .f32 0x41200000#32 = ((10 : ℝ) : EReal) := by
  simp [Ideal.ofBits, Ideal.ieee, -EReal.coe_mul] <;> norm_num

/-- `10485760.0`, samples times pixels. -/
theorem ofBits_all : Ideal.ofBits .f32 0x4B200000#32 = ((10485760 : ℝ) : EReal) := by
  simp [Ideal.ofBits, Ideal.ieee, -EReal.coe_mul] <;> norm_num

end Cert.Consts

end
-- ==== Proof.Spec.lean ====
/-
  The quantity both programs compute, and the three facts that join them.

  Over real arrays `a` (mean), `v` (log-variance) and `e` (noise) and a label array, sample `s` at pixel
  `i = (b, h, w)` has the logits `a[b,c,h,w] + exp (v[b,c,h,w] / 2) · e[s,b,c,h,w]` over the 19 classes, and contributes
  the negative log-likelihood of the pixel's label under their softmax. The result is the mean of that over
  the 10 samples and the 4 · 512 · 512 pixels.

  * On extended-real arrays that are coercions of real ones, with in-range labels, the kernel's per-sample pixel
    expression — log of the sum of exponentials less the one-hot-weighted sum — is the coercion of that real number.
  * A sum over the index set [10, 4, 1, 512, 512] of a function of (sample, pixel) is the double sum over pixels and
    samples.
  * Dividing a real total by 2^20 and then by 10 is dividing it by 10485760.
-/
import proofs.«409889_j14998025798515_3_alg».proof.Proof.PixelLaw
import proofs.«409889_j14998025798515_3_alg».proof.Proof.Consts
import Idealize.ShloMosaic.Lib.ValueIdx
import Idealize.ShloMosaic.Lib.StableHlo.Predicate

noncomputable section

namespace Cert.Nll

open Idealize.ShloMosaic Idealize.ShloMosaic.ValueIdx

/-- The pixel grid [4, 512, 512], the class-resolved arrays [4, 19, 512, 512], the noise [10, 4, 19, 512, 512], and
    the reference's per-sample pixel grid [10, 4, 1, 512, 512]. -/
abbrev P3 : Shape := ⟨3, ![4, 512, 512]⟩
abbrev P4 : Shape := ⟨4, ![4, 19, 512, 512]⟩
abbrev P5 : Shape := ⟨5, ![10, 4, 19, 512, 512]⟩
abbrev Q5 : Shape := ⟨5, ![10, 4, 1, 512, 512]⟩

/-! ## On extended-real arrays -/

/-- Sample `s`'s logit of class `cl` at pixel `i`. -/
def logitA (mean lvar : P4.Idx → EReal) (eps : P5.Idx → EReal) (i : P3.Idx) (s : Fin 10) (cl : Fin 19) : EReal :=
  mean (ix4 (i 0) cl (i 1) (i 2))
    + Ideal.exp (Ideal.ofBits .f32 0x3F000000#32 * lvar (ix4 (i 0) cl (i 1) (i 2))) * eps (ix5 s (i 0) cl (i 1) (i 2))

/-- The one-hot weight of class `cl` at pixel `i`: the word of `cl = label`, widened and converted. -/
def hotA (label : P3.Idx → BitVec 32) (i : P3.Idx) (cl : Fin 19) : EReal :=
  ((((IntOp.cmpi .eq (BitVec.ofNat 32 cl.val) (label i)).setWidth 32).toInt : ℝ) : EReal)

/-- One sample's term at a pixel: log of the sum of the exponentials of the logits less their one-hot-weighted sum. -/
def pixel (mean lvar : P4.Idx → EReal) (eps : P5.Idx → EReal) (label : P3.Idx → BitVec 32) (i : P3.Idx) (s : Fin 10) : EReal :=
  Ideal.log (∑ cl : Fin 19, Ideal.exp (logitA mean lvar eps i s cl)) - ∑ cl : Fin 19, hotA label i cl * logitA mean lvar eps i s cl

/-- The kernel's output array: at each pixel the sum of the ten samples' terms. -/
def tiles (mean lvar : P4.Idx → EReal) (eps : P5.Idx → EReal) (label : P3.Idx → BitVec 32) : P3.Idx → EReal :=
  fun i => ∑ s : Fin 10, pixel mean lvar eps label i s

/-! ## On real arrays -/

/-- Sample `s`'s logit of class `cl` at pixel `i`, over the reals. -/
def lgR (a v : P4.Idx → ℝ) (e : P5.Idx → ℝ) (i : P3.Idx) (s : Fin 10) (cl : Fin 19) : ℝ :=
  a (ix4 (i 0) cl (i 1) (i 2)) + Real.exp (2⁻¹ * v (ix4 (i 0) cl (i 1) (i 2))) * e (ix5 s (i 0) cl (i 1) (i 2))

/-- A label word as a class. -/
def cls (x : BitVec 32) : Fin 19 := ⟨x.toNat % 19, Nat.mod_lt _ (by decide)⟩

/-- Sample `s`'s negative log-likelihood at pixel `i`. -/
def P (a v : P4.Idx → ℝ) (e : P5.Idx → ℝ) (lab : P3.Idx → BitVec 32) (s : Fin 10) (i : P3.Idx) : ℝ :=
  nll (lgR a v e i s) (cls (lab i))

/-- The sum of all samples' and pixels' negative log-likelihoods. -/
def total (a v : P4.Idx → ℝ) (e : P5.Idx → ℝ) (lab : P3.Idx → BitVec 32) : ℝ := ∑ i : P3.Idx, ∑ s : Fin 10, P a v e lab s i

theorem logitA_coe (a v : P4.Idx → ℝ) (e : P5.Idx → ℝ) (i : P3.Idx) (s : Fin 10) (cl : Fin 19) :
    logitA (fun j => ((a j : ℝ) : EReal)) (fun j => ((v j : ℝ) : EReal)) (fun j => ((e j : ℝ) : EReal)) i s cl
      = ((lgR a v e i s cl : ℝ) : EReal) := by
  unfold logitA lgR
  rw [Cert.Consts.ofBits_half, ← EReal.coe_mul, Ideal.exp_coe, ← EReal.coe_mul, ← EReal.coe_add]

/-- With the label a class index, the one-hot weight is 1 at that class and 0 elsewhere. -/
theorem hotA_eq (label : P3.Idx → BitVec 32) (i : P3.Idx) (h : (label i).toNat < 19) (cl : Fin 19) :
    hotA label i cl = if cl = cls (label i) then 1 else 0 := by
  unfold hotA
  by_cases hb : IntOp.cmpi .eq (BitVec.ofNat 32 cl.val) (label i) = 1#1
  · have he : BitVec.ofNat 32 cl.val = label i := StableHlo.Predicate.cmpi_eq_iff.1 hb
    have hcl : cl = cls (label i) := by
      apply Fin.ext
      show cl.val = (label i).toNat % 19
      rw [← he, BitVec.toNat_ofNat]
      have := cl.isLt
      omega
    have h1 : ((1#1 : BitVec 1).setWidth 32).toInt = 1 := by decide
    rw [hb, if_pos hcl, h1]
    simp
  · have hz := eq_zero_of_ne_one hb
    have hcl : cl ≠ cls (label i) := fun e => hb (StableHlo.Predicate.cmpi_eq_iff.2 (by
      apply BitVec.eq_of_toNat_eq
      rw [BitVec.toNat_ofNat]
      have e' : cl.val = (label i).toNat % 19 := congrArg Fin.val e
      have := cl.isLt
      omega))
    have h0 : ((0#1 : BitVec 1).setWidth 32).toInt = 0 := by decide
    rw [hz, if_neg hcl, h0]
    simp

/-- On coerced real arrays with an in-range label, the kernel's term is the real negative log-likelihood. -/
theorem pixel_coe (a v : P4.Idx → ℝ) (e : P5.Idx → ℝ) (lab : P3.Idx → BitVec 32) (i : P3.Idx) (h : (lab i).toNat < 19)
    (s : Fin 10) :
    pixel (fun j => ((a j : ℝ) : EReal)) (fun j => ((v j : ℝ) : EReal)) (fun j => ((e j : ℝ) : EReal)) lab i s
      = ((P a v e lab s i : ℝ) : EReal) := by
  unfold pixel P
  simp only [logitA_coe]
  exact kernel_pixel (lgR a v e i s) (cls (lab i)) (hotA lab i) (hotA_eq lab i h)

theorem tiles_coe (a v : P4.Idx → ℝ) (e : P5.Idx → ℝ) (lab : P3.Idx → BitVec 32) (hlab : ∀ i, (lab i).toNat < 19) (i : P3.Idx) :
    tiles (fun j => ((a j : ℝ) : EReal)) (fun j => ((v j : ℝ) : EReal)) (fun j => ((e j : ℝ) : EReal)) lab i
      = ((∑ s : Fin 10, P a v e lab s i : ℝ) : EReal) := by
  unfold tiles
  rw [coe_sum]
  exact Finset.sum_congr rfl fun s _ => pixel_coe a v e lab i (hlab i) s

/-! ## Samples × pixels -/

/-- An index of [10, 4, 1, 512, 512] is a pixel and a sample. -/
def splitEquiv : Q5.Idx ≃ P3.Idx × Fin 10 where
  toFun j := (ix3 (j 1) (j 3) (j 4), j 0)
  invFun p := ix5 p.2 (p.1 0) (0 : Fin 1) (p.1 1) (p.1 2)
  left_inv j := by
    funext a; apply Fin.ext
    have h2 : (j 2).val = 0 := by have := (j 2).isLt; simp at this; omega
    fin_cases a
    · rfl
    · rfl
    · exact h2.symm
    · rfl
    · rfl
  right_inv p := Prod.ext (eq_ix3 p.1).symm rfl

/-- A sum over [10, 4, 1, 512, 512] of a function of (sample, pixel) is the double sum over pixels and samples. -/
theorem sum_split (f : Fin 10 → P3.Idx → ℝ) :
    ∑ j : Q5.Idx, f (j 0) (ix3 (j 1) (j 3) (j 4)) = ∑ i : P3.Idx, ∑ s : Fin 10, f s i := by
  rw [Fintype.sum_equiv splitEquiv (fun j => f (j 0) (ix3 (j 1) (j 3) (j 4))) (fun p => f p.2 p.1) (fun _ => rfl),
    Fintype.sum_prod_type]

/-! ## The two ways of taking the mean -/

/-- From a zero initial value: a real total over 2^20 and then over 10 is the total over 10485760. -/
theorem mean_two_ways (T : ℝ) :
    Ideal.div (Ideal.div (Ideal.ofBits .f32 0x00000000#32 + (T : EReal)) (Ideal.ofBits .f32 0x49800000#32))
        (Ideal.ofBits .f32 0x41200000#32)
      = Ideal.div (Ideal.ofBits .f32 0x00000000#32 + (T : EReal)) (Ideal.ofBits .f32 0x4B200000#32) := by
  rw [Cert.Consts.ofBits_zero, Cert.Consts.ofBits_pixels, Cert.Consts.ofBits_ten, Cert.Consts.ofBits_all, zero_add,
    Ideal.div_coe (by norm_num : (1048576 : ℝ) ≠ 0), Ideal.div_coe (by norm_num : (10 : ℝ) ≠ 0),
    Ideal.div_coe (by norm_num : (10485760 : ℝ) ≠ 0), ← EReal.coe_mul, ← EReal.coe_mul, ← EReal.coe_mul]
  congr 1
  ring

end Cert.Nll

end
-- ==== Proof.RefValue.lean ====
/-
  The reference's value on real inputs.

  For real arrays `a` (mean), `v` (log-variance), `e` (noise) and labels below 19, the reference forms the logits
  `a[b,c,h,w] + exp (v[b,c,h,w] / 2) · e[s,b,c,h,w]`, takes their log-softmax over the 19 classes with the usual shift by
  the running maximum `M` (started from minus infinity, so a real number once one real logit has been met), reads the
  entry at the pixel's label, negates it, sums over the 10 samples and the 4 · 512 · 512 pixels from zero and divides by
  10485760. Stage by stage, on coerced real arrays:

  * each logit is the coercion of the real logit;
  * the maximum over the class axis, from minus infinity, is the coercion of a real number;
  * the log-softmax entry is `(l c - M) - log (0 + ∑ k, exp (l k - M))`;
  * a label below 19 is not negative as a signed word, so the wrap-around of negative indices keeps it; it passes the
    range test `0 ≤ index ≤ 18`, and the conjunction over the appended unit axis of that test is true, so the select
    takes the gathered value and never the fill;
  * the gather reads, at (s, b, 0, h, w), the operand at (s, b, c, h, w) with `c` the label clamped into [0, 18], which
    is the label itself, i.e. its class;
  * so the negated entry is the negative log-likelihood of the label, for any real shift `M`;
  * the sum over [10, 4, 1, 512, 512] is the double sum over pixels and samples, and the last stage divides it.
-/
import proofs.«409889_j14998025798515_3_alg».proof.Proof.RefRead
import proofs.«409889_j14998025798515_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx Cert.Nll

/-! ## The logits -/

/-- The logits: mean plus the exponential of half the log-variance times the noise. -/
theorem logits (a v : P4.Idx → ℝ) (e : P5.Idx → ℝ) (s : Fin 10) (b : Fin 4) (c : Fin 19) (h w : Fin 512) :
    val_main_v8 (F := Ideal) (fun j => ((a j : ℝ) : EReal)) (fun j => ((v j : ℝ) : EReal)) (fun j => ((e j : ℝ) : EReal))
        (ix5 s b c h w)
      = ((lgR a v e (ix3 b h w) s c : ℝ) : EReal) := by
  rw [val_main_v8_apply, val_main_v7_apply, val_main_v3_apply, val_main_v6_apply, val_main_v5_apply, val_main_v4_apply,
    val_main_v2_apply, val_main_v1_apply, val_main_v0_apply, val_main_cst_apply]
  have h1 : idx_main_v3 (idx_main_v7 (ix5 s b c h w)) = ix4 b c h w := by
    funext x; match x with | ⟨0, _⟩ => rfl | ⟨1, _⟩ => rfl | ⟨2, _⟩ => rfl | ⟨3, _⟩ => rfl
  have h2 : idx_main_v4 (idx_main_v5 (ix5 s b c h w)) = ix4 b c h w := by
    funext x; match x with | ⟨0, _⟩ => rfl | ⟨1, _⟩ => rfl | ⟨2, _⟩ => rfl | ⟨3, _⟩ => rfl
  rw [h1, h2]
  simp only [Ideal.addf_def, Ideal.mulf_def, Ideal.hostUnary_exp_def, Ideal.ofBits_def]
  rw [Cert.Consts.ofBits_half, ← EReal.coe_mul, Ideal.exp_coe, ← EReal.coe_mul, ← EReal.coe_add]
  rfl

/-! ## The running maximum over the classes -/

/-- The index over (s, b, h, w) with class k put back on the reduced axis. -/
theorem lift_class (hr : S10x4x19x512x512.Reduces [2] S10x4x512x512) (s : Fin 10) (b : Fin 4) (h w : Fin 512)
    (k : Fin (S10x4x19x512x512.size 2)) : hr.lift (ix4 s b h w) k = ix5 s b (⟨k.val, k.isLt⟩ : Fin 19) h w := by
  funext c; apply Fin.ext
  fin_cases c <;> rfl

/-- From minus infinity, the maximum of the 19 real logits of a sample at a pixel is a real number. -/
theorem running_max (a v : P4.Idx → ℝ) (e : P5.Idx → ℝ) (s : Fin 10) (b : Fin 4) (h w : Fin 512) :
    ∃ M : ℝ, val_main_call0_v2 (F := Ideal) (fun j => ((a j : ℝ) : EReal)) (fun j => ((v j : ℝ) : EReal)) (fun j => ((e j : ℝ) : EReal))
        (ix4 s b h w) = (M : EReal) := by
  have hr : S10x4x19x512x512.Reduces [2] S10x4x512x512 := by decide
  obtain ⟨M, hM⟩ := fold_max_real (lgR a v e (ix3 b h w) s)
  refine ⟨M, ?_⟩
  rw [val_main_call0_v2_apply, val_main_call0_v1_apply, val_main_call0_cst_0_apply]
  unfold val_main_call0_v0
  rw [Host.reduce_eq_fold_single FloatOps.maximumf _ _ reducesTo_S10x4x19x512x512_S10x4x512x512_d2 hr h_S_]
  have hf : (val_main_v8 (F := Ideal) (fun j => ((a j : ℝ) : EReal)) (fun j => ((v j : ℝ) : EReal)) (fun j => ((e j : ℝ) : EReal))
      ∘ hr.lift (ix4 s b h w)) = fun k : Fin 19 => ((lgR a v e (ix3 b h w) s k : ℝ) : EReal) :=
    funext fun k => by rw [Function.comp_apply, lift_class, logits]; rfl
  rw [hf, val_main_call0_cst_apply]
  show max (Ideal.ofBits .f32 0xFF800000#32)
    ((Finset.univ : Finset (Fin 19)).fold max (Ideal.ofBits .f32 0xFF800000#32) fun k => ((lgR a v e (ix3 b h w) s k : ℝ) : EReal)) = (M : EReal)
  rw [Cert.Consts.ofBits_neg_inf, hM]
  exact max_eq_right bot_le

/-- That maximum, as a real number. -/
def mx (a v : P4.Idx → ℝ) (e : P5.Idx → ℝ) (s : Fin 10) (b : Fin 4) (h w : Fin 512) : ℝ :=
  (val_main_call0_v2 (F := Ideal) (fun j => ((a j : ℝ) : EReal)) (fun j => ((v j : ℝ) : EReal)) (fun j => ((e j : ℝ) : EReal))
    (ix4 s b h w)).toReal

theorem running_max_eq (a v : P4.Idx → ℝ) (e : P5.Idx → ℝ) (s : Fin 10) (b : Fin 4) (h w : Fin 512) :
    val_main_call0_v2 (F := Ideal) (fun j => ((a j : ℝ) : EReal)) (fun j => ((v j : ℝ) : EReal)) (fun j => ((e j : ℝ) : EReal))
        (ix4 s b h w) = ((mx a v e s b h w : ℝ) : EReal) := by
  obtain ⟨M, hM⟩ := running_max a v e s b h w
  unfold mx
  rw [hM, EReal.toReal_coe]

/-! ## The log-softmax -/

/-- The shifted logits: each less the running maximum of its sample and pixel. -/
theorem shifted (a v : P4.Idx → ℝ) (e : P5.Idx → ℝ) (s : Fin 10) (b : Fin 4) (c : Fin 19) (h w : Fin 512) :
    val_main_call0_v5 (F := Ideal) (fun j => ((a j : ℝ) : EReal)) (fun j => ((v j : ℝ) : EReal)) (fun j => ((e j : ℝ) : EReal))
        (ix5 s b c h w)
      = ((lgR a v e (ix3 b h w) s c : ℝ) : EReal) - ((mx a v e s b h w : ℝ) : EReal) := by
  rw [val_main_call0_v5_apply, val_main_call0_v4_apply, val_main_call0_v3_apply, logits]
  have hi : idx_main_call0_v3 (idx_main_call0_v4 (ix5 s b c h w)) = ix4 s b h w := by
    funext x; match x with | ⟨0, _⟩ => rfl | ⟨1, _⟩ => rfl | ⟨2, _⟩ => rfl | ⟨3, _⟩ => rfl
  rw [hi, running_max_eq]
  rfl

/-- The log-softmax: the shifted logit less the log of the sum (from zero) of the exponentials of the shifted logits. -/
theorem log_softmax (a v : P4.Idx → ℝ) (e : P5.Idx → ℝ) (s : Fin 10) (b : Fin 4) (c : Fin 19) (h w : Fin 512) :
    val_main_v9 (F := Ideal) (fun j => ((a j : ℝ) : EReal)) (fun j => ((v j : ℝ) : EReal)) (fun j => ((e j : ℝ) : EReal))
        (ix5 s b c h w)
      = (((lgR a v e (ix3 b h w) s c : ℝ) : EReal) - ((mx a v e s b h w : ℝ) : EReal))
        - Ideal.log (∑ k : Fin 19, Ideal.exp (((lgR a v e (ix3 b h w) s k : ℝ) : EReal) - ((mx a v e s b h w : ℝ) : EReal))) := by
  rw [val_main_v9_apply, shifted, val_main_call0_v10_apply, val_main_call0_v9_apply, val_main_call0_v8_apply]
  have hi : idx_main_call0_v8 (idx_main_call0_v10 (ix5 s b c h w)) = ix4 s b h w := by
    funext x; match x with | ⟨0, _⟩ => rfl | ⟨1, _⟩ => rfl | ⟨2, _⟩ => rfl | ⟨3, _⟩ => rfl
  rw [hi, val_main_call0_v7_apply, val_main_call0_cst_1_apply]
  have hs : ∀ k : Fin 19, val_main_call0_v6 (F := Ideal) (fun j => ((a j : ℝ) : EReal)) (fun j => ((v j : ℝ) : EReal)) (fun j => ((e j : ℝ) : EReal))
      (idx_main_call0_v7 (ix4 s b h w) k)
        = Ideal.exp (((lgR a v e (ix3 b h w) s k : ℝ) : EReal) - ((mx a v e s b h w : ℝ) : EReal)) := fun k => by
    have hk : idx_main_call0_v7 (ix4 s b h w) k = ix5 s b k h w := by
      funext x; match x with | ⟨0, _⟩ => rfl | ⟨1, _⟩ => rfl | ⟨2, _⟩ => rfl | ⟨3, _⟩ => rfl | ⟨4, _⟩ => rfl
    rw [hk, val_main_call0_v6_apply, shifted]
    rfl
  simp only [hs]
  rw [Ideal.ofBits_def, Cert.Consts.ofBits_zero, zero_add]
  rfl

/-! ## The reshape that appends a unit axis, and the gather along the class axis, read at an index -/

/-- The start-indices index a result index reads: its five coordinates, and 0 on the appended unit axis. -/
abbrev six (i : S10x4x1x512x512.Idx) : S10x4x1x512x512x1.Idx := fun b => match b with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩
  | ⟨5, _⟩ => ⟨0, Nat.one_pos⟩

/-- The first five coordinates of a rank-6 index. -/
abbrev front (j : S10x4x1x512x512x1.Idx) : S10x4x1x512x512.Idx := fun b => match b with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => ⟨(j 4).val, (j 4).isLt⟩

/-- Appending a unit axis keeps the row-major position: the reshape reads the first five coordinates. -/
theorem reshape_apply {α : Type} (x : S10x4x1x512x512.Idx → α) (j : S10x4x1x512x512x1.Idx) :
    shapeCast S10x4x1x512x512x1 x shapeCasts_S10x4x1x512x512_S10x4x1x512x512x1 j = x (front j) := by
  refine shapeCast_apply x _ j (front j) ?_
  have h5 : (j 5).val = 0 := by have := (j 5).isLt; simp at this; omega
  show (Shape.rowMajorPi _ (front j)).val = (Shape.rowMajorPi _ j).val
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, h5]

local notation "gd" => gather_S10x4x19x512x512_S10x4x1x512x512x1_S10x4x1x512x512_n_2_0134_0134_2_5_11111

/-- The gather along the class axis: result index (s, b, 0, h, w) reads the operand at (s, b, c, h, w), with c the start
    index at (s, b, 0, h, w, 0) read signed and clamped into [0, 18]. On the four batching axes the slice starts at 0
    and the coordinate is the result's own; the class axis is collapsed, so it has no offset and no batching
    coordinate, and its start is the clamped start index. -/
theorem gather_apply {α : Type} (x : S10x4x19x512x512.Idx → α) (idx : IVec S10x4x1x512x512x1 32) (i : S10x4x1x512x512.Idx) :
    Host.gather gd x idx i
      = x (ix5 (i 0) (i 1) (⟨min (idx (six i)).toInt.toNat 18, by omega⟩ : Fin 19) (i 3) (i 4)) := by
  unfold Host.gather
  congr 1
  funext a
  refine Fin.ext ?_
  show GatherDims.start gd i idx a + GatherDims.batchCoord gd i a + GatherDims.offCoord gd i a = _
  have hoff : GatherDims.offCoord gd i a = 0 :=
    GatherDims.offCoord_eq_zero _ _ _ (by rw [GatherDims.mem_sKept]; revert a; decide)
  rw [hoff, Nat.add_zero]
  fin_cases a
  · rw [GatherDims.start_batching _ _ _ _ (by decide), Nat.zero_add]
    rfl
  · rw [GatherDims.start_batching _ _ _ _ (by decide), Nat.zero_add]
    rfl
  · rw [GatherDims.batchCoord_eq_zero _ _ _ (by decide), Nat.add_zero]
    unfold GatherDims.start
    rw [dif_pos (by decide)]
    have hsi : GatherDims.siIdx gd i ⟨List.idxOf (⟨2, by decide⟩ : Fin 5) (GatherDims.startIndexMap gd),
        List.idxOf_lt_length_iff.2 (by decide)⟩ = six i := by
      funext b; refine Fin.ext ?_
      fin_cases b <;> rfl
    rw [hsi]
    rfl
  · rw [GatherDims.start_batching _ _ _ _ (by decide), Nat.zero_add]
    rfl
  · rw [GatherDims.start_batching _ _ _ _ (by decide), Nat.zero_add]
    rfl

/-- The same, naming the class read. -/
theorem gather_apply_of_eq {α : Type} (x : S10x4x19x512x512.Idx → α) (idx : IVec S10x4x1x512x512x1 32)
    (s : Fin 10) (b : Fin 4) (z : Fin 1) (h w : Fin 512) (c : Fin 19)
    (hc : min (idx (six (ix5 s b z h w))).toInt.toNat 18 = c.val) :
    Host.gather gd x idx (ix5 s b z h w) = x (ix5 s b c h w) := by
  rw [gather_apply]
  refine congrArg x ?_
  funext t
  match t with
  | ⟨0, _⟩ => rfl
  | ⟨1, _⟩ => rfl
  | ⟨2, _⟩ => exact Fin.ext hc
  | ⟨3, _⟩ => rfl
  | ⟨4, _⟩ => rfl

/-! ## The label words: negative-index wrap, range test, and the class they name -/

/-- The broadcast label word at (s, b, 0, h, w) is the pixel's label. -/
theorem label_word (lab : P3.Idx → BitVec 32) (s : Fin 10) (b : Fin 4) (z : Fin 1) (h w : Fin 512) :
    val_main_v11 (F := Ideal) lab (ix5 s b z h w) = lab (ix3 b h w) := by
  rw [val_main_v11_apply, val_main_v10_apply]
  refine congrArg lab ?_
  funext x; match x with | ⟨0, _⟩ => rfl | ⟨1, _⟩ => rfl | ⟨2, _⟩ => rfl

/-- A label below 19 is not negative, so the wrap-around select keeps it. -/
theorem wrapped_word (lab : P3.Idx → BitVec 32) (hlab : ∀ i, (lab i).toNat < 19) (s : Fin 10) (b : Fin 4) (z : Fin 1)
    (h w : Fin 512) :
    val_main_call1_v4 (F := Ideal) lab (ix5 s b z h w) = lab (ix3 b h w) := by
  have hl := hlab (ix3 b h w)
  have hneg : val_main_call1_v1 (F := Ideal) lab (ix5 s b z h w) = 0#1 := by
    rw [val_main_call1_v1_apply, val_main_call1_v0_apply, val_main_call1_c_apply, label_word]
    refine eq_zero_of_ne_one fun h1 => ?_
    have h2 := (StableHlo.Predicate.slt_iff_toNat (a := lab (ix3 b h w)) (b := 0#32) (by omega) (by decide)).1 h1
    simp at h2
  rw [val_main_call1_v4_apply, hneg, select_zero, label_word]

/-- The start index at (s, b, 0, h, w, 0) is the pixel's label. -/
theorem index_word (lab : P3.Idx → BitVec 32) (hlab : ∀ i, (lab i).toNat < 19) (s : Fin 10) (b : Fin 4) (z : Fin 1)
    (h w : Fin 512) :
    val_main_call1_v5 (F := Ideal) lab (six (ix5 s b z h w)) = lab (ix3 b h w) := by
  unfold val_main_call1_v5
  rw [reshape_apply]
  have hf : front (six (ix5 s b z h w)) = ix5 s b z h w := by
    funext x; match x with | ⟨0, _⟩ => rfl | ⟨1, _⟩ => rfl | ⟨2, _⟩ => rfl | ⟨3, _⟩ => rfl | ⟨4, _⟩ => rfl
  rw [hf, wrapped_word lab hlab]

/-- The range test 0 ≤ index ≤ 18 holds there. -/
theorem in_range (lab : P3.Idx → BitVec 32) (hlab : ∀ i, (lab i).toNat < 19) (s : Fin 10) (b : Fin 4) (z : Fin 1)
    (h w : Fin 512) :
    val_main_call1_v11 (F := Ideal) lab (six (ix5 s b z h w)) = 1#1 := by
  have hl := hlab (ix3 b h w)
  have hge : val_main_call1_v7 (F := Ideal) lab (six (ix5 s b z h w)) = 1#1 := by
    rw [val_main_call1_v7_apply, val_main_call1_v6_apply, val_main_call1_c_2_apply, index_word lab hlab]
    exact (StableHlo.Predicate.sge_iff_toNat (a := lab (ix3 b h w)) (b := 0#32) (by omega) (by decide)).2 (by simp)
  have hle : val_main_call1_v10 (F := Ideal) lab (six (ix5 s b z h w)) = 1#1 := by
    rw [val_main_call1_v10_apply, val_main_call1_v9_apply, val_main_call1_v8_apply, val_main_call1_c_1_apply,
      index_word lab hlab]
    refine (StableHlo.Predicate.sle_iff_toNat (a := lab (ix3 b h w)) (b := 18#32) (by omega) (by decide)).2 ?_
    have h18 : (18#32 : BitVec 32).toNat = 18 := by decide
    omega
  rw [val_main_call1_v11_apply, hge, hle]
  rfl

/-- A conjunction of ones from one is one. -/
theorem fold_and_ones {ι : Type} (S : Finset ι) :
    S.fold IntOp.andi (1#1 : BitVec 1) (fun _ => (1#1 : BitVec 1)) = 1#1 := by
  classical
  induction S using Finset.induction_on with
  | empty => rfl
  | insert x S hx ih => rw [Finset.fold_insert hx, ih]; rfl

/-- The index over (s, b, 0, h, w) with the one coordinate of the appended axis put back. -/
theorem lift_unit (hr : S10x4x1x512x512x1.Reduces [5] S10x4x1x512x512) (i : S10x4x1x512x512.Idx)
    (k : Fin (S10x4x1x512x512x1.size 5)) : hr.lift i k = six i := by
  have hk : k.val = 0 := by have := k.isLt; simp at this; omega
  funext c; apply Fin.ext
  fin_cases c
  · rfl
  · rfl
  · rfl
  · rfl
  · rfl
  · exact hk

/-- So the reduced range test is one. -/
theorem in_range_all (lab : P3.Idx → BitVec 32) (hlab : ∀ i, (lab i).toNat < 19) (s : Fin 10) (b : Fin 4) (z : Fin 1)
    (h w : Fin 512) :
    val_main_call1_v12 (F := Ideal) lab (ix5 s b z h w) = 1#1 := by
  have hr : S10x4x1x512x512x1.Reduces [5] S10x4x1x512x512 := by decide
  unfold val_main_call1_v12
  rw [Host.reduce_eq_fold_single IntOp.andi _ _ reducesTo_S10x4x1x512x512x1_S10x4x1x512x512_d5 hr h_S_]
  have hf : (val_main_call1_v11 (F := Ideal) lab ∘ hr.lift (ix5 s b z h w)) = fun _ => (1#1 : BitVec 1) :=
    funext fun k => by rw [Function.comp_apply, lift_unit, in_range lab hlab]
  rw [hf, val_main_call1_c_3_apply]
  exact fold_and_ones _

/-! ## One sample at one pixel -/

/-- The negated gathered log-softmax entry is the negative log-likelihood of the pixel's label. -/
theorem pixel_value (a v : P4.Idx → ℝ) (e : P5.Idx → ℝ) (lab : P3.Idx → BitVec 32) (hlab : ∀ i, (lab i).toNat < 19)
    (s : Fin 10) (b : Fin 4) (z : Fin 1) (h w : Fin 512) :
    val_main_v13 (F := Ideal) (fun j => ((a j : ℝ) : EReal)) (fun j => ((v j : ℝ) : EReal)) lab (fun j => ((e j : ℝ) : EReal))
        (ix5 s b z h w)
      = ((P a v e lab s (ix3 b h w) : ℝ) : EReal) := by
  have hl := hlab (ix3 b h w)
  rw [val_main_v13_apply, val_main_v12_apply, in_range_all lab hlab, select_one]
  unfold val_main_call1_v13
  rw [gather_apply_of_eq _ _ s b z h w (cls (lab (ix3 b h w))) (by
    rw [index_word lab hlab, StableHlo.Predicate.toInt_eq_toNat_of_lt (by omega), Int.toNat_natCast]
    show min (lab (ix3 b h w)).toNat 18 = (lab (ix3 b h w)).toNat % 19
    omega)]
  rw [log_softmax, Ideal.hostNegf_def, Ideal.negf_def]
  exact reference_pixel (lgR a v e (ix3 b h w) s) (cls (lab (ix3 b h w))) (mx a v e s b h w)

/-! ## The mean -/

/-- The reference's last stage, on coerced real arrays with labels below 19: the total over the divisor. -/
theorem ref_value (a v : P4.Idx → ℝ) (e : P5.Idx → ℝ) (lab : P3.Idx → BitVec 32) (hlab : ∀ i, (lab i).toNat < 19) (i : Cert.ReferenceIdeal.S_.Idx) :
    Cert.ReferenceIdeal.Read.val_main_v15 (F := Ideal) (fun j => ((a j : ℝ) : EReal)) (fun j => ((v j : ℝ) : EReal)) lab (fun j => ((e j : ℝ) : EReal)) i
      = Ideal.div (Ideal.ofBits .f32 0x00000000#32 + ((total a v e lab : ℝ) : EReal)) (Ideal.ofBits .f32 0x4B200000#32) := by
  rw [val_main_v15_apply, val_main_v14_apply, val_main_cst_0_apply, val_main_cst_1_apply]
  have hpix : ∀ j : Q5.Idx, val_main_v13 (F := Ideal) (fun j => ((a j : ℝ) : EReal)) (fun j => ((v j : ℝ) : EReal)) lab (fun j => ((e j : ℝ) : EReal)) j
      = ((P a v e lab (j 0) (ix3 (j 1) (j 3) (j 4)) : ℝ) : EReal) := fun j =>
    (congrArg (val_main_v13 (F := Ideal) (fun j => ((a j : ℝ) : EReal)) (fun j => ((v j : ℝ) : EReal)) lab (fun j => ((e j : ℝ) : EReal))) (eq_ix5 j)).trans
      (pixel_value a v e lab hlab (j 0) (j 1) (j 2) (j 3) (j 4))
  have hsum : ∑ j : S10x4x1x512x512.Idx, val_main_v13 (F := Ideal) (fun j => ((a j : ℝ) : EReal)) (fun j => ((v j : ℝ) : EReal)) lab (fun j => ((e j : ℝ) : EReal)) j
      = ((total a v e lab : ℝ) : EReal) := by
    unfold total
    rw [← sum_split (fun s i => P a v e lab s i), coe_sum]
    exact Finset.sum_congr rfl fun j _ => hpix j
  rw [hsum, Ideal.hostDivf_def, Ideal.ofBits_def, Ideal.ofBits_def]

end Cert.ReferenceIdeal.RefValue

end
-- ==== Proof.PreFacts.lean ====
/-
  What the finiteness-and-range precondition says of the four inputs, read at the extended reals.

  The predicate is the conjunction of four "for all elements" tests, each a reduction by "and" from 1 over all
  axes: |x0| < +inf, |x1| < +inf, |x3| < +inf, and 0 ≤ label < 19 (signed). If the predicate is 1 then every
  element passed its test. An extended real x whose absolute value max x (-x) is strictly below the top
  element is neither the top (max ⊤ _ = ⊤) nor the bottom (-⊥ = ⊤): it is the coercion of a real. A 32-bit
  word that reads, signed, at least 0 and below 19 has its top bit clear, so it reads the same unsigned and
  is below 19.
-/
import proofs.«409889_j14998025798515_3_alg».proof.Pre_finite_inputs
import proofs.«409889_j14998025798515_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Cert.Pre_finite_inputs

/-- The scalar shape has one index. -/
instance : Subsingleton S_.Idx := ⟨fun a b => funext fun d => d.elim0⟩

/-- The pattern of +inf (exponent all ones, fraction zero, sign clear) denotes the top element. -/
theorem ofBits_inf : Ideal.ofBits .f32 0x7F800000#32 = ⊤ := by
  simp [Ideal.ofBits, Ideal.ieee]

/-- A one-bit word made from a Boolean is 1 exactly when the Boolean is true. -/
theorem ofBool_eq_one (b : Bool) : BitVec.ofBool b = 1#1 ↔ b = true := by cases b <;> decide

/-- An extended real whose absolute value tests strictly below +inf is a real:
    at ⊥ the absolute value is max ⊥ ⊤ = ⊤, at ⊤ it is max ⊤ ⊥ = ⊤, and ⊤ < ⊤ is false. -/
theorem real_of_abs_lt (x : EReal)
    (h : Ideal.cmp .olt (max x (-x)) (Ideal.ofBits .f32 0x7F800000#32) = 1#1) : ∃ r : ℝ, x = (r : EReal) := by
  rw [ofBits_inf] at h
  simp only [Ideal.cmp, ofBool_eq_one, decide_eq_true_eq] at h
  induction x using EReal.rec with
  | bot => simp at h
  | coe r => exact ⟨r, rfl⟩
  | top => simp at h

/-- A 32-bit word at least 0 and below 19, both signed, is below 19 unsigned: were its top bit set it would
    read negative. -/
theorem label_lt (w : BitVec 32) (h0 : IntOp.cmpi .sge w 0#32 = 1#1) (h1 : IntOp.cmpi .slt w 19#32 = 1#1) :
    w.toNat < 19 := by
  rw [IntOp.cmpi_sge] at h0
  rw [IntOp.cmpi_slt] at h1
  have e0 : (0#32 : BitVec 32).toInt = 0 := by decide
  have e19 : (19#32 : BitVec 32).toInt = 19 := by decide
  rw [e0] at h0
  rw [e19] at h1
  have hw := w.isLt
  rw [BitVec.toInt_eq_toNat_cond] at h0 h1
  by_cases hc : 2 * w.toNat < 2 ^ 32
  · rw [if_pos hc] at h1; omega
  · rw [if_neg hc] at h0; omega

/-- The predicate opened: it is the "and" of four all-axes reductions by "and"; each being 1, every element of
    each reduced array is 1, and an element of each array is the comparison of the corresponding input element. -/
theorem conjuncts (x0 x1 : FVec Ideal S4x19x512x512 .f32) (x2 : IVec S4x512x512 32)
    (x3 : FVec Ideal S10x4x19x512x512 .f32)
    (h : Cert.Pre_finite_inputs.fn (F := Ideal) x0 x1 x2 x3 = fun _ => 1#1) :
    (∀ i : S4x19x512x512.Idx, Ideal.cmp .olt (max (x0 i) (-(x0 i))) (Ideal.ofBits .f32 0x7F800000#32) = 1#1)
    ∧ (∀ i : S4x19x512x512.Idx, Ideal.cmp .olt (max (x1 i) (-(x1 i))) (Ideal.ofBits .f32 0x7F800000#32) = 1#1)
    ∧ (∀ i : S10x4x19x512x512.Idx, Ideal.cmp .olt (max (x3 i) (-(x3 i))) (Ideal.ofBits .f32 0x7F800000#32) = 1#1)
    ∧ (∀ i : S4x512x512.Idx, IntOp.cmpi .sge (x2 i) 0#32 = 1#1 ∧ IntOp.cmpi .slt (x2 i) 19#32 = 1#1) := by
  have e := congrFun h ValueIdx.ix0
  unfold Cert.Pre_finite_inputs.fn Cert.Pre_finite_inputs.fn_part1 at e
  dsimp only at e
  simp only [Idealize.ShloMosaic.andi, IntOp.andi_eq_one] at e
  obtain ⟨⟨⟨e0, e1⟩, e3⟩, e2⟩ := e
  refine ⟨fun i => ?_, fun i => ?_, fun i => ?_, fun i => ?_⟩
  · exact Host.reduce_andi_all _ _ _ _ _ e0 i
  · exact Host.reduce_andi_all _ _ _ _ _ e1 i
  · exact Host.reduce_andi_all _ _ _ _ _ e3 i
  · exact IntOp.andi_eq_one.1 (Host.reduce_andi_all _ _ _ _ _ e2 i)

/-- Under the precondition the three float inputs are arrays of reals and every label is a class index
    below 19. -/
theorem of_pre (x0 x1 : FVec Ideal S4x19x512x512 .f32) (x2 : IVec S4x512x512 32) (x3 : FVec Ideal S10x4x19x512x512 .f32)
    (h : Cert.Pre_finite_inputs.fn (F := Ideal) x0 x1 x2 x3 = fun _ => 1#1) :
    (∃ a : S4x19x512x512.Idx → ℝ, x0 = fun j => ((a j : ℝ) : EReal))
    ∧ (∃ v : S4x19x512x512.Idx → ℝ, x1 = fun j => ((v j : ℝ) : EReal))
    ∧ (∃ e : S10x4x19x512x512.Idx → ℝ, x3 = fun j => ((e j : ℝ) : EReal))
    ∧ ∀ i : S4x512x512.Idx, (x2 i).toNat < 19 := by
  obtain ⟨c0, c1, c3, c2⟩ := conjuncts x0 x1 x2 x3 h
  choose a ha using fun j => real_of_abs_lt (x0 j) (c0 j)
  choose v hv using fun j => real_of_abs_lt (x1 j) (c1 j)
  choose e he using fun j => real_of_abs_lt (x3 j) (c3 j)
  exact ⟨⟨a, funext ha⟩, ⟨v, funext hv⟩, ⟨e, funext he⟩, fun i => label_lt (x2 i) (c2 i).1 (c2 i).2⟩

end Cert.PreFacts

end
-- ==== Proof.KernelPay.lean ====
/-
  One trip of the kernel's loop over the ten noise samples, read at a pixel of a 32 × 512 tile.

  The trip takes the tile's log-variance block `lv`, mean block `mu`, label block `lab`, the running total `acc` and
  one sample's noise block `ep`. For class `c` at pixel `(r, w)` the logit is
  `mu[c, r, w] + exp (½ · lv[c, r, w]) · ep[c, r, w]`; the one-hot weight of `c` is the word of `c = lab[r, w]` widened
  and converted, that is 1 when `c` is the pixel's label and 0 otherwise. The trip adds to `acc[r, w]` the log of the
  sum over the 19 classes of the exponentials of the logits, less the one-hot-weighted sum of the logits. Every
  layout operation on the way adds or drops unit axes, or repeats the label tile along the class axis, and a sum
  over the class axis reads the class coordinate put back in front.
-/
import proofs.«409889_j14998025798515_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The index bookkeeping -/

/-- A [1, 1, 19, 32, 512] sample block viewed [19, 32, 512] reads (c, r, w) at (0, 0, c, r, w). -/
theorem cast_sample {α : Type} (x : S1x1x19x32x512.Idx → α) (h : S1x1x19x32x512.ShapeCasts S19x32x512)
    (c : Fin 19) (r : Fin 32) (w : Fin 512) :
    shapeCast S19x32x512 x h (ix3 c r w) = x (ix5 (0 : Fin 1) (0 : Fin 1) c r w) :=
  shapeCast_apply x h _ _ (by
    rw [Shape.rowMajor_val_five, Shape.rowMajor_val_three]
    show (((0 * 1 + 0) * 19 + c.val) * 32 + r.val) * 512 + w.val = (c.val * 32 + r.val) * 512 + w.val
    omega)

/-- The label tile repeated along the class axis reads (c, r, w) at (0, r, w). -/
theorem bcast_label {α : Type} (x : S1x32x512.Idx → α) (h : S1x32x512.Broadcasts S19x32x512)
    (c : Fin 19) (r : Fin 32) (w : Fin 512) :
    broadcastTo S19x32x512 x h (ix3 c r w) = x (ix3 (0 : Fin 1) r w) :=
  broadcastTo_apply x h (ix3 c r w) (ix3 (0 : Fin 1) r w) fun a => match a with
    | ⟨0, _⟩ => rfl
    | ⟨1, _⟩ => rfl
    | ⟨2, _⟩ => rfl

/-- The pixel (r, w) with class coordinate `k` put back in front is (k, r, w). -/
theorem lift_class (h : S19x32x512.Reduces [0] S32x512) (r : Fin 32) (w : Fin 512) (k : Fin (S19x32x512.size 0)) :
    h.lift (ix2 r w) k = ix3 (⟨k.val, k.isLt⟩ : Fin 19) r w := by
  funext a; apply Fin.ext
  fin_cases a <;> rfl

/-- A sum over the class axis, read at pixel (r, w), is the sum over the 19 classes of the entries (c, r, w). -/
theorem class_sum (src : FVec Ideal S19x32x512 .f32) (h : S19x32x512.Reduces [0] S32x512) (hφ : FKind.Formats .f32)
    (hacc : (0x00000000#32 : BitVec 32) = 0x00000000#32) (r : Fin 32) (w : Fin 512) :
    multiReduction .add [0] S32x512 src 0x00000000#32 h hφ hacc (ix2 r w) = ∑ c : Fin 19, src (ix3 c r w) :=
  (Ideal.multiReduction_add_single src 0x00000000#32 h hφ hacc (ix2 r w)).trans
    (Finset.sum_congr rfl fun k _ => congrArg src (lift_class h r w k))

/-! ## The tile's logits and one-hot weights -/

section
variable (lv mu : FVec Ideal S1x19x32x512 .f32) (lab : IVec S1x32x512 32) (ep : FVec Ideal S1x1x19x32x512 .f32)

/-- One sample's logit of class `c` at pixel (r, w): mean plus standard deviation times noise. -/
def logit (r : Fin 32) (w : Fin 512) (c : Fin 19) : EReal :=
  mu (ix4 (0 : Fin 1) c r w)
    + Ideal.exp (Ideal.ofBits .f32 0x3F000000#32 * lv (ix4 (0 : Fin 1) c r w)) * ep (ix5 (0 : Fin 1) (0 : Fin 1) c r w)

/-- The one-hot weight of class `c` at pixel (r, w): the word of `c = label`, widened and converted. -/
def hot (r : Fin 32) (w : Fin 512) (c : Fin 19) : EReal :=
  ((((IntOp.cmpi .eq (BitVec.ofNat 32 c.val) (lab (ix3 (0 : Fin 1) r w))).setWidth 32).toInt : ℝ) : EReal)

/-- The tile's logits as the trip computes them. -/
def logits : FVec Ideal S19x32x512 .f32 :=
  addf (shapeCast S19x32x512 mu shapeCasts_S1x19x32x512_S19x32x512)
    (mulf (exp (mulf (broadcast S19x32x512 (Scalar.ofBits (F := Ideal) .f32 0x3F000000#32))
        (shapeCast S19x32x512 lv shapeCasts_S1x19x32x512_S19x32x512)))
      (shapeCast S19x32x512 ep shapeCasts_S1x1x19x32x512_S19x32x512))

/-- The tile's one-hot weights as the trip computes them. -/
def onehot : FVec Ideal S19x32x512 .f32 :=
  sitofp .f32 (extui 32 (cmpi .eq (iota .tc S19x32x512 32 [0] iota_S19x32x512_d0_w32)
    (broadcastTo S19x32x512
      (shapeCast S1x32x512 (shapeCast S32x512 lab shapeCasts_S1x32x512_S32x512) shapeCasts_S32x512_S1x32x512)
      broadcasts_S1x32x512_S19x32x512)) natLt_1_32)

theorem logits_apply (c : Fin 19) (r : Fin 32) (w : Fin 512) : logits lv mu ep (ix3 c r w) = logit lv mu ep r w c := by
  show shapeCast S19x32x512 mu _ (ix3 c r w)
      + Ideal.exp (Ideal.ofBits .f32 0x3F000000#32 * shapeCast S19x32x512 lv _ (ix3 c r w))
        * shapeCast S19x32x512 ep _ (ix3 c r w) = _
  rw [shapeCast_1abc_abc_apply, shapeCast_1abc_abc_apply, cast_sample]
  rfl

theorem onehot_apply (c : Fin 19) (r : Fin 32) (w : Fin 512) : onehot lab (ix3 c r w) = hot lab r w c := by
  show ((((IntOp.cmpi .eq (iota .tc S19x32x512 32 [0] _ (ix3 c r w))
      (broadcastTo S19x32x512 (shapeCast S1x32x512 (shapeCast S32x512 lab _) _) _ (ix3 c r w))).setWidth 32).toInt : ℝ) : EReal) = _
  rw [iota_single_apply, shapeCast_shapeCast, bcast_label]
  rfl

/-- The trip over the named logits and weights. -/
theorem pay2_eq (acc : FVec Ideal S32x512 .f32) :
    k0_pay2 (F := Ideal) lv mu lab acc ep
      = addf acc (shapeCast S32x512
          (subf
            (log (shapeCast S1x32x512
              (multiReduction .add [0] S32x512 (exp (logits lv mu ep)) 0x00000000#32 reduces_S19x32x512_S32x512 (.inl rfl) rfl)
              shapeCasts_S32x512_S1x32x512))
            (shapeCast S1x32x512
              (multiReduction .add [0] S32x512 (mulf (onehot lab) (logits lv mu ep)) 0x00000000#32 reduces_S19x32x512_S32x512 (.inl rfl) rfl)
              shapeCasts_S32x512_S1x32x512))
          shapeCasts_S1x32x512_S32x512) := rfl

/-- One trip at a pixel: the running total plus log-sum-exp of the logits less their one-hot-weighted sum. -/
theorem pay2_apply (acc : FVec Ideal S32x512 .f32) (r : Fin 32) (w : Fin 512) :
    k0_pay2 (F := Ideal) lv mu lab acc ep (ix2 r w)
      = acc (ix2 r w) + (Ideal.log (∑ c : Fin 19, Ideal.exp (logit lv mu ep r w c))
          - ∑ c : Fin 19, hot lab r w c * logit lv mu ep r w c) := by
  rw [pay2_eq]
  show acc (ix2 r w) + shapeCast S32x512 _ _ (ix2 r w) = _
  rw [shapeCast_1ab_ab_apply]
  show acc (ix2 r w) + (Ideal.log (shapeCast S1x32x512 _ _ (ix3 (0 : Fin 1) r w)) - shapeCast S1x32x512 _ _ (ix3 (0 : Fin 1) r w)) = _
  rw [shapeCast_ab_1ab_apply, shapeCast_ab_1ab_apply, class_sum, class_sum]
  show acc (ix2 r w) + (Ideal.log (∑ c : Fin 19, Ideal.exp (logits lv mu ep (ix3 c r w)))
      - ∑ c : Fin 19, onehot lab (ix3 c r w) * logits lv mu ep (ix3 c r w)) = _
  simp only [logits_apply, onehot_apply]

end

end Cert.KernelIdeal.Pay

end
-- ==== Proof.KernelBlock.lean ====
/-
  What one grid point leaves in its output tile.

  At a grid point the body loads the tile's log-variance, mean and label blocks once, runs the loop over the ten
  noise samples from a zero total, and stores the total over the whole output tile. The loop's carried total
  before trip `n` is a recursion on the trips; one trip adds, at each pixel, the sample's negative log-likelihood
  term: the log of the sum of the exponentials of the 19 logits less the one-hot-weighted sum of the logits.
  Trip `k` reads sample `k`'s slice of the tile's noise block. So after the ten trips the tile holds, at pixel
  (r, w), the sum over the ten samples of that term.
-/
import proofs.«409889_j14998025798515_3_alg».proof.Proof.Gen.KernelIdeal.Frame
import proofs.«409889_j14998025798515_3_alg».proof.Proof.KernelPay
import proofs.«409889_j14998025798515_3_alg».proof.Proof.Consts

set_option maxRecDepth 16384

noncomputable section

namespace Cert.KernelIdeal.Blk

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem zero3 : (![0, 0, 0] : Fin 3 → ℕ) = fun _ => 0 := by funext a; fin_cases a <;> rfl
theorem zero4 : (![0, 0, 0, 0] : Fin 4 → ℕ) = fun _ => 0 := by funext a; fin_cases a <;> rfl

/-- The loop runs ten trips. -/
theorem trips_eq : k0_t1_loop.trips = 10 := by decide

section AnyInstance

variable {F : FTy → Type} [FloatOps F]

/-- One trip's yield is the trip's arithmetic on the carried total and on what the trip loads of the noise block. -/
theorem trip_eq (𝒱 : Variants) (c : Dev nD) (bd : Option 𝒱.V) (i : grid0.Coords) (arg2 : Memref sig .tc .vmem S1x19x32x512 .f32) (harg2 : arg2.IsWhole) (arg3 : Memref sig .tc .vmem S1x19x32x512 .f32) (harg3 : arg3.IsWhole) (arg4 : Memref sig .tc .vmem S10x1x19x32x512 .f32) (harg4 : arg4.IsWhole) (arg5 : Memref sig .tc .vmem S1x32x512 .i32) (harg5 : arg5.IsWhole) (arg6 : Memref sig .tc .vmem S1x32x512 .f32) (harg6 : arg6.IsWhole)
    (v0 v5 : Vec F S1x19x32x512 .f32) (v7 : Vec F S1x32x512 .i32) (X_arg4 : BufTy.Contents (Elt F) arg4.view.ty)
    (k : Fin k0_t1_loop.trips) (acc : FVec F S32x512 .f32) :
    tripR_k0_t1 (F := F) 𝒱 c bd i arg2 harg2 arg3 harg3 arg4 harg4 arg5 harg5 arg6 harg6 v0 v5 v7 X_arg4 k acc
      = k0_pay2 v0 v5 v7 acc (View.readAt (Elt F) arg4.view
          (Rect.unit (s := S10x1x19x32x512) (k0_off1 k) S1x1x19x32x512.size (k0_off1_inb k)).toLoadRect X_arg4) := by
  unfold tripR_k0_t1 trip_k0_t1
  rfl

/-- What the run leaves in the output tile: the loop's total after its last trip, over the three loaded blocks. -/
theorem out_eq (c : Dev nD) (i : grid0.Coords) (arg2 : Memref sig .tc .vmem S1x19x32x512 .f32) (harg2 : arg2.IsWhole) (arg3 : Memref sig .tc .vmem S1x19x32x512 .f32) (harg3 : arg3.IsWhole) (arg4 : Memref sig .tc .vmem S10x1x19x32x512 .f32) (harg4 : arg4.IsWhole) (arg5 : Memref sig .tc .vmem S1x32x512 .i32) (harg5 : arg5.IsWhole) (arg6 : Memref sig .tc .vmem S1x32x512 .f32) (harg6 : arg6.IsWhole)
    (x0 x1 : Vec F S1x19x32x512 .f32) (x2 : Vec F S10x1x19x32x512 .f32) (x3 : Vec F S1x32x512 .i32) :
    out0_A_4 (F := F) c i arg2 harg2 arg3 harg3 arg4 harg4 arg5 harg5 arg6 harg6 x0 x1 x2 x3
      = k0_pay3 (st_k0_t1 (F := F) Variants.none c none i arg2 harg2 arg3 harg3 arg4 harg4 arg5 harg5 arg6 harg6 x1 x0 x3 (harg4.unread x2) k0_pay1 k0_t1_loop.trips) := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  rw [View.canon_unit_zero zero3]
  simp only [View.readAt_eq_ld, harg2.read_unread, harg3.read_unread, harg5.read_unread,
    View.ld_unit_zero (S := S1x19x32x512) zero4, View.ld_unit_zero (S := S1x32x512) zero3]

/-- The stored tile at (0, r, w) is the loop's total at (r, w). -/
theorem pay3_apply (v17 : FVec F S32x512 .f32) (r : Fin 32) (w : Fin 512) :
    k0_pay3 (F := F) v17 (ix3 (0 : Fin 1) r w) = v17 (ix2 r w) := by
  unfold k0_pay3
  exact shapeCast_ab_1ab_apply v17 _ (0 : Fin 1) r w

end AnyInstance

/-! ## At the extended reals -/

section AtIdeal

variable (c : Dev nD) (i : grid0.Coords) (arg2 : Memref sig .tc .vmem S1x19x32x512 .f32) (harg2 : arg2.IsWhole) (arg3 : Memref sig .tc .vmem S1x19x32x512 .f32) (harg3 : arg3.IsWhole) (arg4 : Memref sig .tc .vmem S10x1x19x32x512 .f32) (harg4 : arg4.IsWhole) (arg5 : Memref sig .tc .vmem S1x32x512 .i32) (harg5 : arg5.IsWhole) (arg6 : Memref sig .tc .vmem S1x32x512 .f32) (harg6 : arg6.IsWhole)
variable (lv mu : FVec Ideal S1x19x32x512 .f32) (lab : IVec S1x32x512 32) (eps : FVec Ideal S10x1x19x32x512 .f32)

/-- Sample `s`'s slice of the tile's noise block. -/
def sample (s : Fin 10) : FVec Ideal S1x1x19x32x512 .f32 :=
  fun y => eps (ix5 s (y 1) (y 2) (y 3) (y 4))

/-- Trip `k` loads sample `k`'s slice. -/
theorem load_sample (k : Fin k0_t1_loop.trips) (hk : k.val < 10) :
    View.readAt (Elt Ideal) arg4.view
        (Rect.unit (s := S10x1x19x32x512) (k0_off1 k) S1x1x19x32x512.size (k0_off1_inb k)).toLoadRect (harg4.unread eps)
      = sample eps ⟨k.val, hk⟩ := by
  rw [View.readAt_eq_ld, harg4.read_unread]
  refine funext fun (y : S1x1x19x32x512.Idx) => ?_
  show eps _ = eps _
  congr 1
  funext a; apply Fin.ext
  show k0_off1 k a + 1 * (y a).val = _
  have e := congrFun (k0_off1_eq k) a
  rw [e]
  have h0 : (y 0).val = 0 := by have := (y 0).isLt; simp at this; omega
  fin_cases a
  · show k.val + 1 * (y 0).val = k.val; omega
  · show 0 + 1 * (y 1).val = (y 1).val; omega
  · show 0 + 1 * (y 2).val = (y 2).val; omega
  · show 0 + 1 * (y 3).val = (y 3).val; omega
  · show 0 + 1 * (y 4).val = (y 4).val; omega

/-- One sample's term at pixel (r, w): log-sum-exp of the logits less their one-hot-weighted sum. -/
def term (r : Fin 32) (w : Fin 512) (s : Fin 10) : EReal :=
  Ideal.log (∑ cl : Fin 19, Ideal.exp (Pay.logit lv mu (sample eps s) r w cl))
    - ∑ cl : Fin 19, Pay.hot lab r w cl * Pay.logit lv mu (sample eps s) r w cl

/-- The carried total before trip `n`, at a pixel: the terms of the samples before `n`. -/
theorem total_apply (n : ℕ) (hn : n ≤ 10) (r : Fin 32) (w : Fin 512) :
    st_k0_t1 (F := Ideal) Variants.none c none i arg2 harg2 arg3 harg3 arg4 harg4 arg5 harg5 arg6 harg6 lv mu lab (harg4.unread eps) k0_pay1 n (ix2 r w)
      = ∑ s : Fin 10, if s.val < n then term lv mu lab eps r w s else 0 := by
  induction n with
  | zero =>
    rw [Finset.sum_eq_zero (fun s _ => if_neg (Nat.not_lt_zero _))]
    show Ideal.ofBits .f32 0x00000000#32 = 0
    exact Cert.Consts.ofBits_zero
  | succ n ih =>
    have hlt : n < 10 := hn
    have hk : n < k0_t1_loop.trips := by rw [trips_eq]; exact hlt
    have hs := st_k0_t1_succ (F := Ideal) Variants.none c none i arg2 harg2 arg3 harg3 arg4 harg4 arg5 harg5 arg6 harg6 lv mu lab (harg4.unread eps) k0_pay1 ⟨n, hk⟩
    rw [show n + 1 = (⟨n, hk⟩ : Fin k0_t1_loop.trips).val + 1 from rfl, hs, trip_eq, load_sample arg4 harg4 eps ⟨n, hk⟩ hlt,
      Pay.pay2_apply, ih (Nat.le_of_lt hlt)]
    have split : ∀ s : Fin 10, (if s.val < n + 1 then term lv mu lab eps r w s else 0)
        = (if s.val < n then term lv mu lab eps r w s else 0) + (if s = ⟨n, hlt⟩ then term lv mu lab eps r w s else 0) := by
      intro s
      by_cases h1 : s.val < n
      · have : s ≠ ⟨n, hlt⟩ := fun e => by rw [e] at h1; exact Nat.lt_irrefl _ h1
        rw [if_pos h1, if_pos (Nat.lt_succ_of_lt h1), if_neg this, add_zero]
      · by_cases h2 : s = ⟨n, hlt⟩
        · rw [if_neg h1, if_pos h2, if_pos (by rw [h2]; exact Nat.lt_succ_self n), zero_add]
        · have : ¬ s.val < n + 1 := fun h => h2 (Fin.ext (show s.val = n by have := Nat.lt_succ_iff.1 h; omega))
          rw [if_neg h1, if_neg h2, if_neg this, add_zero]
    rw [Finset.sum_congr rfl (fun s _ => split s), Finset.sum_add_distrib, Finset.sum_ite_eq' Finset.univ (⟨n, hlt⟩ : Fin 10),
      if_pos (Finset.mem_univ _)]
    rfl

/-- After the ten trips the tile holds, at pixel (r, w), the sum over the ten samples of the sample's term. -/
theorem tile_apply (r : Fin 32) (w : Fin 512) :
    out0_A_4 (F := Ideal) c i arg2 harg2 arg3 harg3 arg4 harg4 arg5 harg5 arg6 harg6 mu lv eps lab (ix3 (0 : Fin 1) r w)
      = ∑ s : Fin 10, term lv mu lab eps r w s := by
  rw [out_eq, pay3_apply, total_apply c i arg2 harg2 arg3 harg3 arg4 harg4 arg5 harg5 arg6 harg6 lv mu lab eps k0_t1_loop.trips k0_t1_abs.2.1 r w]
  exact Finset.sum_congr rfl fun s _ => if_pos (by rw [trips_eq]; exact s.isLt)

end AtIdeal

end Cert.KernelIdeal.Blk

end
-- ==== Proof.KernelArray.lean ====
/-
  From the tiles to the array, and the host lines after the region.

  The 64 grid points (b, hT) each write one [1, 32, 512] tile of the [4, 512, 512] output, the tile of rows
  32·hT … 32·hT + 31 of image b; the tiles cover the array. Each input window moves with the output's: the mean and
  log-variance tiles are [1, 19, 32, 512] at (b, 0, hT, 0), the noise tile is [10, 1, 19, 32, 512] at (0, b, 0, hT, 0),
  the label tile [1, 32, 512] at (b, hT, 0). So what a point leaves at (r, w) of its tile — the sum over the ten
  samples of the sample's term over the tile's blocks — is the same sum over the argument arrays at the pixel
  (b, 32·hT + r, w): the output array after the region is one function of the argument arrays. The host lines after
  the region sum it over all pixels from zero and divide by 2^20 and then by 10.
-/
import proofs.«409889_j14998025798515_3_alg».proof.Proof.KernelBlock
import proofs.«409889_j14998025798515_3_alg».proof.Proof.Spec
import Idealize.ShloMosaic.Lib.StableHlo.Run

set_option maxRecDepth 16384

noncomputable section

namespace Cert.KernelIdeal.Arr

open Cert.KernelIdeal Cert.KernelIdeal.Gen Cert.Nll
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The argument arrays as the region finds them, and the four input tiles of a grid point, at their literal types. -/
abbrev meanA (c : Dev nD) : FVec Ideal S4x19x512x512 .f32 := V m c main_arg0
abbrev lvarA (c : Dev nD) : FVec Ideal S4x19x512x512 .f32 := V m c main_arg1
abbrev labelA (c : Dev nD) : IVec S4x512x512 32 := V m c main_arg2
abbrev epsA (c : Dev nD) : FVec Ideal S10x4x19x512x512 .f32 := V m c main_arg3
abbrev meanB (c : Dev nD) (t : Fin cfg0.N) : FVec Ideal S1x19x32x512 .f32 := iblk m c 0 t
abbrev lvarB (c : Dev nD) (t : Fin cfg0.N) : FVec Ideal S1x19x32x512 .f32 := iblk m c 1 t
abbrev epsB (c : Dev nD) (t : Fin cfg0.N) : FVec Ideal S10x1x19x32x512 .f32 := iblk m c 2 t
abbrev labelB (c : Dev nD) (t : Fin cfg0.N) : IVec S1x32x512 32 := iblk m c 3 t

/-- The printed index maps, decided over the 64 grid points: every input window's block index in terms of the
    output window's, and the output's ranges. -/
theorem idx_facts : ∀ t : Fin cfg0.N,
    win0_0.index t (0 : Fin 4) = win0_4.index t (0 : Fin 3) ∧ win0_0.index t (1 : Fin 4) = 0
    ∧ win0_0.index t (2 : Fin 4) = win0_4.index t (1 : Fin 3) ∧ win0_0.index t (3 : Fin 4) = 0
    ∧ win0_1.index t (0 : Fin 4) = win0_4.index t (0 : Fin 3) ∧ win0_1.index t (1 : Fin 4) = 0
    ∧ win0_1.index t (2 : Fin 4) = win0_4.index t (1 : Fin 3) ∧ win0_1.index t (3 : Fin 4) = 0
    ∧ win0_2.index t (0 : Fin 5) = 0 ∧ win0_2.index t (1 : Fin 5) = win0_4.index t (0 : Fin 3)
    ∧ win0_2.index t (2 : Fin 5) = 0 ∧ win0_2.index t (3 : Fin 5) = win0_4.index t (1 : Fin 3)
    ∧ win0_2.index t (4 : Fin 5) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) ≤ 3 ∧ win0_4.index t (1 : Fin 3) ≤ 15 ∧ win0_4.index t (2 : Fin 3) = 0 :=
  (by decide +kernel : ∀ t : Fin grid0.N, _)

/-- Every tile position (b, hT) is some grid point's. -/
theorem idx_onto : ∀ (q0 : Fin 4) (q1 : Fin 16), ∃ t : Fin cfg0.N, win0_4.index t = ![q0.val, q1.val, 0] :=
  (by decide +kernel : ∀ (q0 : Fin 4) (q1 : Fin 16), ∃ t : Fin grid0.N, win0_4.index t = ![q0.val, q1.val, 0])

/-- The pixel of the array that grid point `t`'s tile holds at (r, w). -/
def px (t : Fin cfg0.N) (r : Fin 32) (w : Fin 512) : S4x512x512.Idx :=
  ((cfg0.win 4).blk t).view.emb (ix3 (0 : Fin 1) r w)

/-! ## The input tiles read off the argument arrays -/

theorem meanB_apply (c : Dev nD) (t : Fin cfg0.N) (cl : Fin 19) (r : Fin 32) (w : Fin 512) :
    meanB m c t (ix4 (0 : Fin 1) cl r w) = meanA m c (ix4 (px t r w 0) cl (px t r w 1) (px t r w 2)) := by
  obtain ⟨e0, e1, e2, e3, -, -, -, -, -, -, -, -, -, -, -, -, -, -, o2⟩ := idx_facts t
  show V m c main_arg0 (((cfg0.win 0).blk t).view.emb (ix4 (0 : Fin 1) cl r w)) = V m c main_arg0 _
  refine congrArg _ (funext fun a => Fin.ext ?_)
  match a with
  | ⟨0, _⟩ => show win0_0.index t (0 : Fin 4) * 1 + 1 * 0 = win0_4.index t (0 : Fin 3) * 1 + 1 * 0; omega
  | ⟨1, _⟩ => show win0_0.index t (1 : Fin 4) * 19 + 1 * cl.val = cl.val; omega
  | ⟨2, _⟩ => show win0_0.index t (2 : Fin 4) * 32 + 1 * r.val = win0_4.index t (1 : Fin 3) * 32 + 1 * r.val; omega
  | ⟨3, _⟩ => show win0_0.index t (3 : Fin 4) * 512 + 1 * w.val = win0_4.index t (2 : Fin 3) * 512 + 1 * w.val; omega

theorem lvarB_apply (c : Dev nD) (t : Fin cfg0.N) (cl : Fin 19) (r : Fin 32) (w : Fin 512) :
    lvarB m c t (ix4 (0 : Fin 1) cl r w) = lvarA m c (ix4 (px t r w 0) cl (px t r w 1) (px t r w 2)) := by
  obtain ⟨-, -, -, -, e0, e1, e2, e3, -, -, -, -, -, -, -, -, -, -, o2⟩ := idx_facts t
  show V m c main_arg1 (((cfg0.win 1).blk t).view.emb (ix4 (0 : Fin 1) cl r w)) = V m c main_arg1 _
  refine congrArg _ (funext fun a => Fin.ext ?_)
  match a with
  | ⟨0, _⟩ => show win0_1.index t (0 : Fin 4) * 1 + 1 * 0 = win0_4.index t (0 : Fin 3) * 1 + 1 * 0; omega
  | ⟨1, _⟩ => show win0_1.index t (1 : Fin 4) * 19 + 1 * cl.val = cl.val; omega
  | ⟨2, _⟩ => show win0_1.index t (2 : Fin 4) * 32 + 1 * r.val = win0_4.index t (1 : Fin 3) * 32 + 1 * r.val; omega
  | ⟨3, _⟩ => show win0_1.index t (3 : Fin 4) * 512 + 1 * w.val = win0_4.index t (2 : Fin 3) * 512 + 1 * w.val; omega

theorem epsB_apply (c : Dev nD) (t : Fin cfg0.N) (s : Fin 10) (cl : Fin 19) (r : Fin 32) (w : Fin 512) :
    epsB m c t (ix5 s (0 : Fin 1) cl r w) = epsA m c (ix5 s (px t r w 0) cl (px t r w 1) (px t r w 2)) := by
  obtain ⟨-, -, -, -, -, -, -, -, e0, e1, e2, e3, e4, -, -, -, -, -, o2⟩ := idx_facts t
  show V m c main_arg3 (((cfg0.win 2).blk t).view.emb (ix5 s (0 : Fin 1) cl r w)) = V m c main_arg3 _
  refine congrArg _ (funext fun a => Fin.ext ?_)
  match a with
  | ⟨0, _⟩ => show win0_2.index t (0 : Fin 5) * 10 + 1 * s.val = s.val; omega
  | ⟨1, _⟩ => show win0_2.index t (1 : Fin 5) * 1 + 1 * 0 = win0_4.index t (0 : Fin 3) * 1 + 1 * 0; omega
  | ⟨2, _⟩ => show win0_2.index t (2 : Fin 5) * 19 + 1 * cl.val = cl.val; omega
  | ⟨3, _⟩ => show win0_2.index t (3 : Fin 5) * 32 + 1 * r.val = win0_4.index t (1 : Fin 3) * 32 + 1 * r.val; omega
  | ⟨4, _⟩ => show win0_2.index t (4 : Fin 5) * 512 + 1 * w.val = win0_4.index t (2 : Fin 3) * 512 + 1 * w.val; omega

theorem labelB_apply (c : Dev nD) (t : Fin cfg0.N) (r : Fin 32) (w : Fin 512) :
    labelB m c t (ix3 (0 : Fin 1) r w) = labelA m c (px t r w) := by
  obtain ⟨-, -, -, -, -, -, -, -, -, -, -, -, -, e0, e1, e2, -, -, o2⟩ := idx_facts t
  show V m c main_arg2 (((cfg0.win 3).blk t).view.emb (ix3 (0 : Fin 1) r w)) = V m c main_arg2 _
  refine congrArg _ (funext fun a => Fin.ext ?_)
  match a with
  | ⟨0, _⟩ => show win0_3.index t (0 : Fin 3) * 1 + 1 * 0 = win0_4.index t (0 : Fin 3) * 1 + 1 * 0; omega
  | ⟨1, _⟩ => show win0_3.index t (1 : Fin 3) * 32 + 1 * r.val = win0_4.index t (1 : Fin 3) * 32 + 1 * r.val; omega
  | ⟨2, _⟩ => show win0_3.index t (2 : Fin 3) * 512 + 1 * w.val = win0_4.index t (2 : Fin 3) * 512 + 1 * w.val; omega

/-! ## A tile is the matching block of one function of the argument arrays -/

/-- A sample's term over the tile's blocks is the sample's term over the arrays at the tile's pixel. -/
theorem term_eq (c : Dev nD) (t : Fin cfg0.N) (r : Fin 32) (w : Fin 512) (s : Fin 10) :
    Blk.term (lvarB m c t) (meanB m c t) (labelB m c t) (epsB m c t) r w s
      = pixel (meanA m c) (lvarA m c) (epsA m c) (labelA m c) (px t r w) s := by
  have hl : ∀ cl : Fin 19, Pay.logit (lvarB m c t) (meanB m c t) (Blk.sample (epsB m c t) s) r w cl
      = logitA (meanA m c) (lvarA m c) (epsA m c) (px t r w) s cl := fun cl => by
    show meanB m c t (ix4 (0 : Fin 1) cl r w)
        + Ideal.exp (Ideal.ofBits .f32 0x3F000000#32 * lvarB m c t (ix4 (0 : Fin 1) cl r w))
          * epsB m c t (ix5 s (0 : Fin 1) cl r w) = _
    rw [meanB_apply, lvarB_apply, epsB_apply]
    rfl
  have hh : ∀ cl : Fin 19, Pay.hot (labelB m c t) r w cl = hotA (labelA m c) (px t r w) cl := fun cl => by
    unfold Pay.hot hotA
    rw [labelB_apply]
  unfold Blk.term pixel
  simp only [hl, hh]

theorem tile_eq (c : Dev nD) (t : Fin cfg0.N) (r : Fin 32) (w : Fin 512) :
    outsAt0 m c t (ix3 (0 : Fin 1) r w) = tiles (meanA m c) (lvarA m c) (epsA m c) (labelA m c) (px t r w) := by
  unfold outsAt0
  refine (Blk.tile_apply c (grid0.coords t) (ms0_0 t) (hs0_0 t) (ms0_1 t) (hs0_1 t) (ms0_2 t) (hs0_2 t) (ms0_3 t) (hs0_3 t)
    (ms0_4 t) (hs0_4 t) (lvarB m c t) (meanB m c t) (labelB m c t) (epsB m c t) r w).trans ?_
  exact Finset.sum_congr rfl fun s _ => term_eq m c t r w s

/-- WHAT POINT `t` WRITES BACK is block `t` of that function of the argument arrays. -/
theorem flushed_eq (c : Dev nD) (t : Fin cfg0.N) :
    (dats m 0 c).flushed 4 t
      = ((cfg0.win 4).blk t).view.read (Elt Ideal) (tiles (meanA m c) (lvarA m c) (epsA m c) (labelA m c)) := by
  show (cfg0.win 4).cut (grid0.coords t) ((dats m 0 c).after 4 t) = _
  rw [after0_4]
  refine funext fun (j : S1x32x512.Idx) => ?_
  have hj : j = ix3 (0 : Fin 1) (j 1) (j 2) := by
    have h := eq_ix3 j
    have h0 : j 0 = (0 : Fin 1) := Fin.ext (Nat.lt_one_iff.1 (j 0).isLt)
    rw [h0] at h
    exact h
  rw [hj]
  exact tile_eq m c t (j 1) (j 2)

/-! ## The tiles cover the array -/

/-- An index of the array is in point `t`'s tile iff each coordinate is in the tile's range on its axis. -/
theorem mem_blk (t : Fin cfg0.N) (i : S4x512x512.Idx) :
    i ∈ ((cfg0.win 4).blk t).view.set ↔ ∀ a : Fin 3, win0_4.index t a * S1x32x512.size a ≤ (i a).val
      ∧ (i a).val < win0_4.index t a * S1x32x512.size a + S1x32x512.size a := by
  show i ∈ ((View.whole main_v0).slice (win0_4.rect t)).set ↔ _
  rw [View.set_slice_whole, Rect.mem_set_unit]
  exact Iff.rfl

theorem cover (i : S4x512x512.Idx) : ∃ t : Fin cfg0.N, (cfg0.win 4).flush t = true ∧ i ∈ ((cfg0.win 4).blk t).view.set := by
  have h0 : (i 0).val < 4 := (i 0).isLt
  have h1 : (i 1).val < 512 := (i 1).isLt
  have h2 : (i 2).val < 512 := (i 2).isLt
  obtain ⟨t, ht⟩ := idx_onto ⟨(i 0).val, h0⟩ ⟨(i 1).val / 32, by omega⟩
  have q0 : win0_4.index t (0 : Fin 3) = (i 0).val := congrFun ht 0
  have q1 : win0_4.index t (1 : Fin 3) = (i 1).val / 32 := congrFun ht 1
  have q2 : win0_4.index t (2 : Fin 3) = 0 := congrFun ht 2
  refine ⟨t, flush0_4 t, (mem_blk t i).2 fun a => ?_⟩
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 32 ≤ (i 1).val ∧ (i 1).val < win0_4.index t (1 : Fin 3) * 32 + 32; omega
  | ⟨2, _⟩ => show win0_4.index t (2 : Fin 3) * 512 ≤ (i 2).val ∧ (i 2).val < win0_4.index t (2 : Fin 3) * 512 + 512; omega

/-- THE OUTPUT ARRAY after the region: at every pixel the sum of the ten samples' terms over the argument arrays. -/
theorem final (c : Dev nD) :
    (dats m 0 c).arrAt 4 cfg0.N = tiles (meanA m c) (lvarA m c) (epsA m c) (labelA m c) :=
  (dats m 0 c).arrAt_eq_of_cover 4 _ (fun t _ => flushed_eq m c t) cover

/-! ## The host lines after the region -/

/-- The result buffer after the run: the sum of the output array from zero, over 2^20, over 10. -/
theorem result_eq (c : Dev nD) :
    Pipeline.afterTail₀ cfgs (dats m) 0 (V0 m) [hostOps1] c main_v3
      = fun _ => Ideal.div (Ideal.div (Ideal.ofBits .f32 0x00000000#32
            + ∑ i : S4x512x512.Idx, tiles (meanA m c) (lvarA m c) (epsA m c) (labelA m c) i)
          (Ideal.ofBits .f32 0x49800000#32)) (Ideal.ofBits .f32 0x41200000#32) := by
  unfold Pipeline.afterTail₀
  show StableHlo.after hostOps1 _ (Proc.devRef .tc main_v3) = _
  after_results
  rw [(Pipeline.withArrays_arr spec0 launch0.win.arr_inj c _ _ 4).trans (final m c)]
  funext j
  show Ideal.div (Ideal.div (Host.reduceAdd (F := Ideal) (tiles (meanA m c) (lvarA m c) (epsA m c) (labelA m c))
      (constant (F := Ideal) S_ .f32 0x00000000#32) reducesTo_S4x512x512_S_d0_1_2 h_S_ (ValueIdx.ix0))
      (Ideal.ofBits .f32 0x49800000#32)) (Ideal.ofBits .f32 0x41200000#32) = _
  simp only [Host.reduceAdd, Ideal.hostReduceAdd_def]
  rw [Ideal.hostReduceAdd_total reducesTo_S4x512x512_S_d0_1_2 (fun b => b.elim0)]
  rfl

/-! ## The run, read -/

/-- The frame run re-posted: the result buffer at the mean of the output array, the arguments unchanged. -/
theorem run : θ_run defs (onTc (τ := τ) (main (F := Ideal))) ⟨m, fun _ => 0, ρ⟩ fun r => ∀ c : Dev nD,
      r.2.mem ((c.tc : Thread nD τ).loc main_v3)
        = (fun _ => Ideal.div (Ideal.div (Ideal.ofBits .f32 0x00000000#32
              + ∑ i : S4x512x512.Idx, tiles (meanA m c) (lvarA m c) (epsA m c) (labelA m c) i)
            (Ideal.ofBits .f32 0x49800000#32)) (Ideal.ofBits .f32 0x41200000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v3 (Pipeline.mem_restRefs_of main_v3 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c)))⟩)
    (run_main m ρ)

end Cert.KernelIdeal.Arr

end
-- ==== Proof.lean ====
/-
  The kernel computes, per 32 × 512 tile, the sum over ten noise samples of the softmax negative log-likelihood of
  each pixel's label (log of the sum of the exponentials of the 19 logits less the one-hot-selected logit, with no
  maximum shift), and the host lines average the tiles: the total over 2^20 pixels, then over 10 samples. The
  reference computes the shifted log-softmax, gathers the label's entry, negates and averages over all
  10 · 4 · 512 · 512 entries at once. Under the precondition — finite float inputs, labels in [0, 19) — the logits are
  real numbers, the shift by the running maximum cancels (exp (l - M) = exp (-M) · exp l, and log of a product of
  positives), the gather reads the class the one-hot selects, and both results are the same real number: the sum of
  all samples' and pixels' negative log-likelihoods over 10485760.

  The three frames: the two kernels' are the generated frame certificates; the reference's is its run with the
  result dropped. No operation of the kernel was rewritten by the idealization, so there is nothing to preserve.
-/
import proofs.«409889_j14998025798515_3_alg».proof.Defs
import proofs.«409889_j14998025798515_3_alg».proof.Proof.Gen.Kernel
import proofs.«409889_j14998025798515_3_alg».proof.Proof.Gen.Kernel.Skeleton
import proofs.«409889_j14998025798515_3_alg».proof.Proof.Gen.Kernel.Loops
import proofs.«409889_j14998025798515_3_alg».proof.Proof.Gen.Kernel.Launch
import proofs.«409889_j14998025798515_3_alg».proof.Proof.Gen.Kernel.Points
import proofs.«409889_j14998025798515_3_alg».proof.Proof.Gen.Kernel.Frame
import proofs.«409889_j14998025798515_3_alg».proof.Proof.Gen.KernelIdeal
import proofs.«409889_j14998025798515_3_alg».proof.Proof.Gen.KernelIdeal.Skeleton
import proofs.«409889_j14998025798515_3_alg».proof.Proof.Gen.KernelIdeal.Loops
import proofs.«409889_j14998025798515_3_alg».proof.Proof.Gen.KernelIdeal.Launch
import proofs.«409889_j14998025798515_3_alg».proof.Proof.Gen.KernelIdeal.Points
import proofs.«409889_j14998025798515_3_alg».proof.Proof.Gen.KernelIdeal.Frame
import proofs.«409889_j14998025798515_3_alg».proof.Proof.Gen.ReferenceIdeal
import proofs.«409889_j14998025798515_3_alg».proof.Proof.Gen.Pre_finite_inputs
import proofs.«409889_j14998025798515_3_alg».proof.Proof.RefRun
import proofs.«409889_j14998025798515_3_alg».proof.Proof.RefRead
import proofs.«409889_j14998025798515_3_alg».proof.Proof.RefLine
import proofs.«409889_j14998025798515_3_alg».proof.Proof.RefValue
import proofs.«409889_j14998025798515_3_alg».proof.Proof.PreFacts
import proofs.«409889_j14998025798515_3_alg».proof.Proof.KernelArray
import Idealize.ShloMosaic.Adequacy
import Idealize.ShloMosaic.Init

noncomputable section

namespace Cert.Proof

open Idealize.ShloMosaic Idealize.ShloMosaic.TcCoe Idealize.SL.Sem Cert.Nll

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Line.run (F := Ideal) m ρ)

/-- Under the precondition the kernel's result — the sum of its output array from zero, over 2^20, over 10 — is the
    reference's last stage of the same argument arrays: with the inputs real and the labels in range both are the
    coercion of the total negative log-likelihood over 10485760. -/
theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) :
    ((fun _ => Ideal.div (Ideal.div (Ideal.ofBits .f32 0x00000000#32
          + ∑ i : Cert.KernelIdeal.S4x512x512.Idx, tiles (Cert.KernelIdeal.Arr.meanA m c) (Cert.KernelIdeal.Arr.lvarA m c)
              (Cert.KernelIdeal.Arr.epsA m c) (Cert.KernelIdeal.Arr.labelA m c) i)
        (Ideal.ofBits .f32 0x49800000#32)) (Ideal.ofBits .f32 0x41200000#32)) :
        Buf (Elt Ideal) ((c.tc : Thread Cert.KernelIdeal.nD Cert.KernelIdeal.τ).loc Cert.KernelIdeal.main_v3))
      = Cert.ReferenceIdeal.Read.val_main_v15 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨⟨a, ha⟩, ⟨v, hv⟩, ⟨e, he⟩, hlab⟩ := Cert.PreFacts.of_pre _ _ _ _ (hpre c)
  have hm : Cert.KernelIdeal.Arr.meanA m c = fun j => ((a j : ℝ) : EReal) := ha
  have hl : Cert.KernelIdeal.Arr.lvarA m c = fun j => ((v j : ℝ) : EReal) := hv
  have hn : Cert.KernelIdeal.Arr.epsA m c = fun j => ((e j : ℝ) : EReal) := he
  rw [hm, hl, hn, ha, hv, he]
  funext i
  rw [Cert.ReferenceIdeal.RefValue.ref_value a v e _ hlab i]
  have hsum : (∑ j : Cert.KernelIdeal.S4x512x512.Idx,
      tiles (fun j => ((a j : ℝ) : EReal)) (fun j => ((v j : ℝ) : EReal)) (fun j => ((e j : ℝ) : EReal))
        (Cert.KernelIdeal.Arr.labelA m c) j) = ((total a v e (Cert.KernelIdeal.Arr.labelA m c) : ℝ) : EReal) := by
    unfold total
    rw [coe_sum]
    exact Finset.sum_congr rfl fun j _ => tiles_coe a v e _ hlab j
  rw [hsum]
  exact mean_two_ways _

/-- At the extended reals the two programs, run from memories that agree on the arguments, end with equal results:
    the reference's last stage of the kernel's argument arrays. -/
theorem algebraic : Cert.algebraic_KernelIdeal_ReferenceIdeal := by
  intro m ρ m' ρ' hpre hagree
  refine ⟨fun c => Cert.ReferenceIdeal.Read.val_main_v15 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (value_eq m hpre c), (h c).2⟩)
      (Cert.KernelIdeal.Arr.run m ρ)
  · refine (θ_run Cert.ReferenceIdeal.defs _ _).mono (fun _ h c => ⟨(h c).1.trans ?_, (h c).2⟩)
      (Cert.ReferenceIdeal.Line.run (F := Ideal) m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
